-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S128x1024 : Shape := ⟨2, ![128, 1024]⟩
abbrev S128 : Shape := ⟨1, ![128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x1024 .f32) (main_arg6 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x4096x1024 .f32) (main_arg1 : FVec F S128x1024 .f32) (main_arg2 : FVec F S128 .f32) (main_arg3 : FVec F S128x1024 .f32) (main_arg4 : FVec F S128 .f32) (main_arg5 : FVec F S128x1024 .f32) (main_arg6 : FVec F S128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_v13 main_v16
-- ==== Kernel.lean ====
abbrev S4x4096x1024 : Shape := ⟨3, ![4, 4096, 1024]⟩
abbrev S128x1024 : Shape := ⟨2, ![128, 1024]⟩
abbrev S128 : Shape := ⟨1, ![128]⟩
abbrev S4x4096x128 : Shape := ⟨3, ![4, 4096, 128]⟩
abbrev S4x128x128 : Shape := ⟨3, ![4, 128, 128]⟩
abbrev S1x1024x1024 : Shape := ⟨3, ![1, 1024, 1024]⟩
abbrev S1x1024x128 : Shape := ⟨3, ![1, 1024, 128]⟩
abbrev S1x128x128 : Shape := ⟨3, ![1, 128, 128]⟩
abbrev S128x128 : Shape := ⟨2, ![128, 128]⟩
abbrev S1024x1024 : Shape := ⟨2, ![1024, 1024]⟩
abbrev S1024x128 : Shape := ⟨2, ![1024, 128]⟩
abbrev S1x128 : Shape := ⟨2, ![1, 128]⟩
abbrev S1x4096x128 : Shape := ⟨3, ![1, 4096, 128]⟩
abbrev S4096x128 : Shape := ⟨2, ![4096, 128]⟩

abbrev nBuf : Space → Nat
  | .hbm => 10
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S4x4096x128, .bf16⟩
  | .hbm, ⟨8, _⟩ => ⟨S4x128x128, .f32⟩
  | .hbm, ⟨9, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S128x1024, .f32⟩
  | .local _ .vmem, ⟨3, _⟩ => ⟨S128, .f32⟩
  | .local _ .vmem, ⟨4, _⟩ => ⟨S128x1024, .f32⟩
  | .local _ .vmem, ⟨5, _⟩ => ⟨S128, .f32⟩
  | .local _ .vmem, ⟨6, _⟩ => ⟨S128x1024, .f32⟩
  | .local _ .vmem, ⟨7, _⟩ => ⟨S128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x128x128, .f32⟩
  | .local _ .vmem, ⟨11, _⟩ => ⟨S1x128x128, .f32⟩
  | .local _ .vmem, ⟨12, _⟩ => ⟨S128x128, .f32⟩
  | .local _ .vmem, ⟨13, _⟩ => ⟨S1x4096x128, .bf16⟩
  | .local _ .vmem, ⟨14, _⟩ => ⟨S1x4096x128, .bf16⟩
  | .local _ .vmem, ⟨15, _⟩ => ⟨S1x128x128, .f32⟩
  | .local _ .vmem, ⟨16, _⟩ => ⟨S1x128x128, .f32⟩
  | .local _ .vmem, ⟨17, _⟩ => ⟨S1x4096x128, .f32⟩
  | .local _ .vmem, ⟨18, _⟩ => ⟨S1x4096x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_22 : BitVec 32 := 0#32
  let v45 : BitVec 1 := Scalar.cmpi .ne v44 c0_i32_22
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  transposes_S128x1024_p1_0_S1024x128 : S128x1024.Transposes [1, 0] S1024x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  transposes_S1024x128_p1_0_S128x1024 : S1024x128.Transposes [1, 0] S128x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S1024x1024_S1024x128_S1024x128_1_0_0_1_n_n_wf : DotDims.WF S1024x1024 S1024x128 S1024x128 [1] [0] [0] [1] [] []
  dot_S128x1024_S1024x128_S128x128_1_0_0_1_n_n_wf : DotDims.WF S128x1024 S1024x128 S128x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .f32 = 32 ∨ (Rect.block (s := S128x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S4x4096x128.size a
  hwx0_7 : ∀ i : grid0.Coords, EltTy.bits .bf16 = 32 ∨ (Rect.block (s := S4x4096x128) S1x1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x128.size a ≤ S4x128x128.size a
  hwx0_8 : ∀ i : grid0.Coords, EltTy.bits .f32 = 32 ∨ (Rect.block (s := S4x128x128) S1x128x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S4x4096x128.size a
  hwx1_0 : ∀ i : grid1.Coords, EltTy.bits .bf16 = 32 ∨ (Rect.block (s := S4x4096x128) S1x4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x128x128.size a
  hwx1_1 : ∀ i : grid1.Coords, EltTy.bits .f32 = 32 ∨ (Rect.block (s := S4x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x128.size a
  hwx1_2 : ∀ i : grid1.Coords, EltTy.bits .f32 = 32 ∨ (Rect.block (s := S4x4096x128) S1x4096x128.size (cc1_transform_2 i) (hinb1_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v0_0) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S128x1024 : Shape := ⟨2, ![128, 1024]⟩
abbrev S128 : Shape := ⟨1, ![128]⟩
abbrev S4x4096x128 : Shape := ⟨3, ![4, 4096, 128]⟩
abbrev S1x1x128 : Shape := ⟨3, ![1, 1, 128]⟩
abbrev S4x4096x4096 : Shape := ⟨3, ![4, 4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S1x1x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S1x1x128, .f32⟩
  | .hbm, ⟨17, _⟩ => ⟨S4x4096x128, .f32⟩
  | .hbm, ⟨18, _⟩ => ⟨S4x4096x128, .f32⟩
  | .hbm, ⟨19, _⟩ => ⟨S4x4096x4096, .f32⟩
  | .hbm, ⟨20, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x1024_S128x1024_S4x4096x128_2_1_01_0_n_n_wf : DotDims.WF S4x4096x1024 S128x1024 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S128x1024_S4x4096x128_2_1_01_0_n_n : DotDims S4x4096x1024 S128x1024 S4x4096x128 where
  lhsContracting := [2]
  rhsContracting := [1]
  lhsNonContracting := [0, 1]
  rhsNonContracting := [0]
  lhsBatch := []
  rhsBatch := []
  wf := dot_S4x4096x1024_S128x1024_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.K.RegionA.Base.lean ====
import proofs.«128367_j40510131536516_1_alg».proof.Proof.Gen.Kernel.Launch
import proofs.«128367_j40510131536516_1_alg».proof.Proof.Gen.Kernel.Skeleton
import proofs.«128367_j40510131536516_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# The projection kernel (first pallas_call): what its runs are stated over

The first kernel runs on a 4 × 4 grid (batch `n`, row tile `mm`; point `t = 4 n + mm`). At each point it reads a
[1024, 1024] tile of `X` and the three weight matrices and biases (whose blocks never move), writes the tile's
queries, and adds the tile's `Kᵀ V` into a [128, 128] accumulator it keeps between points: reset where `mm = 0`,
copied to the second output where `mm = 3`. Here: each window's block at a point; that an input window's buffer
holds its block at every point, fetched there or not; the two branch conditions as congruences of the point;
where the second output is idle; and the kernel's memrefs by name.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point: where it was not fetched the block index has
    not moved and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions -/

/-- The reset's condition (`mm = 0`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The copy-out's condition (`mm = 3`), from the grid coordinates. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from the last row tile the second output is idle: nothing is stored into it, -/
theorem idleAt0_8 : ∀ t : Fin cfg0.N, ¬cond0_1 (grid0.coords t) → cfg0.idle 8 (grid0.coords t) = true := by decide +kernel
/-- and it is not written back there. -/
theorem noFlush0_8 : ∀ t : Fin cfg0.N, ¬cond0_1 (grid0.coords t) → (cfg0.win 8).flush t = false := by decide +kernel
/-- At the last row tile it is live. -/
theorem liveAt0_8 : ∀ t : Fin cfg0.N, cond0_1 (grid0.coords t) → cfg0.idle 8 (grid0.coords t) = false := by decide +kernel

/-! ## The kernel's memrefs -/

/-- One staging buffer of each output window, through which its contents are stated (the choice does not matter). -/
abbrev VO0_7 : View sig .tc .vmem S1x1024x128 .bf16 := (Memref.whole cc0_stg7_0 : Memref sig .tc .vmem S1x1024x128 .bf16).view
abbrev VO0_8 : View sig .tc .vmem S1x128x128 .f32 := (Memref.whole cc0_stg8_0 : Memref sig .tc .vmem S1x128x128 .f32).view
/-- Each window's current staging memref at point `t`, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x128 .f32 := win0_8.stage (cfg0.slots t 8)
abbrev hs0_8 (t : Fin cfg0.N) : (ms0_8 t).IsWhole := hstage0_8 ((cfg0.slots t 8).cast nbuf0_8)
/-- The accumulator: a whole scoped buffer of the kernel's own. -/
abbrev scM0 : Memref sig .tc .vmem S128x128 .f32 := Memref.whole cc0_scratch0
abbrev VS0 : View sig .tc .vmem S128x128 .f32 := scM0.view

/-- The second kernel's staging buffers, each whole at some contents: scoped buffers this kernel never touches. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant opened: the accumulator at some contents, the other kernel's staging buffers, the
    generator register at some state. -/
theorem PhiA0_eq (c : Dev nD) :
    (Pipeline.ΦA spec0 c : sProp 𝕄)
      = iprop(iprop((∃ d, owns (c : Thread nD τ) scM0 fullShare d) ∗ restB (F := F) c) ∗ (∃ r, prngReg c r)) := by
  unfold Pipeline.ΦA restB; rw [scopedRest0_eq]; simp only [scM0, owns_whole]; try rfl

end Cert.Kernel.Hand

end
-- ==== Proof.K.RegionA.RunA.lean ====
import proofs.«128367_j40510131536516_1_alg».proof.Proof.K.RegionA.Base

/-!
# The projection kernel's body at the first row tile of a batch (the accumulator is reset; nothing is copied out)

On whole staging memrefs — the seven inputs at their contents, the query output at anything, the second output
at contents it leaves untouched, the accumulator at anything — the body runs to its
continuation with the inputs as they were and each buffer it stores into holding its stores, as a list of pieces
(last store first). The pieces are what the run finds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) :
    Σ' (L7 : List (View.Piece (Elt F) S1x1024x128 .bf16)), { LS0 : List (View.Piece (Elt F) S128x128 .f32) //
      ∀ (e8 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare e8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare e8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11) K } := by
  refine ⟨?_, ?_, fun e8 E K => ?run⟩
  case run =>
    haveI : Fact (cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%ds0, %fs0, -, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]
    · iexists _; isplitr; · ipureintro; exact harg10.read_unread _
      iexact H10
    iexists _; iexact HS0

end Cert.Kernel.Hand

end
-- ==== Proof.K.RegionA.RunB.lean ====
import proofs.«128367_j40510131536516_1_alg».proof.Proof.K.RegionA.Base

/-!
# The projection kernel's body at a middle row tile (no reset, nothing copied out)

On whole staging memrefs — the seven inputs at their contents, the query output at anything, the second output
at contents it leaves untouched, the accumulator at what the point before left — the body runs to its
continuation with the inputs as they were and each buffer it stores into holding its stores, as a list of pieces
(last store first). The pieces are what the run finds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    Σ' (L7 : List (View.Piece (Elt F) S1x1024x128 .bf16)), { LS0 : List (View.Piece (Elt F) S128x128 .f32) //
      ∀ (e8 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare e8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare e8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11) K } := by
  refine ⟨?_, ?_, fun e8 E K => ?run⟩
  case run =>
    haveI : Fact (¬cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg10.eq_unread hf10
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]
    · iexists _; isplitr; · ipureintro; exact harg10.read_unread _
      iexact H10
    iexists _; iexact HS0

end Cert.Kernel.Hand

end
-- ==== Proof.K.RegionA.RunC.lean ====
import proofs.«128367_j40510131536516_1_alg».proof.Proof.K.RegionA.Base

/-!
# The projection kernel's body at the last row tile of a batch (no reset; the accumulator is copied to the second output)

On whole staging memrefs — the seven inputs at their contents, the query output at anything, the second output
at anything, the accumulator at what the point before left — the body runs to its
continuation with the inputs as they were and each buffer it stores into holding its stores, as a list of pieces
(last store first). The pieces are what the run finds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    Σ' (L7 : List (View.Piece (Elt F) S1x1024x128 .bf16)) (L8 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11) K } := by
  refine ⟨?_, ?_, ?_, fun E K => ?run⟩
  case run =>
    haveI : Fact (¬cond0_0 i) := ⟨hc0⟩
    haveI : Fact (cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    iexists _; iexact HS0

end Cert.Kernel.Hand

end
-- ==== Proof.K.RegionA.Dat.lean ====
import proofs.«128367_j40510131536516_1_alg».proof.Proof.K.RegionA.RunA
import proofs.«128367_j40510131536516_1_alg».proof.Proof.K.RegionA.RunB
import proofs.«128367_j40510131536516_1_alg».proof.Proof.K.RegionA.RunC

/-!
# The projection kernel: what it leaves point by point, and its proof data

Each of the three cases (first, middle, last row tile of a batch) leaves the tile's queries in the query output's
buffer and an updated accumulator; the last also copies the accumulator to the second output. The accumulator after a
point is defined by recursion on the point — reset at a first row tile, otherwise what the case leaves over what the
point before left — and the region's invariant carries it from point to point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The query output's pieces in this case tile its block, so they cover it. -/
theorem cover0_A_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (y : S1x1024x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S1x1024x128.size (by sl_kernel_rfl) y
/-- What this case leaves in the query output's staging buffer: its pieces read back. -/
def out0_A_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) : Vec F S1x1024x128 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)
/-- The accumulator's pieces in this case cover it. -/
theorem scover0_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (y : S128x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.1 S128x128.size (by sl_kernel_rfl) y
/-- What this case leaves in the accumulator: its pieces read back. -/
def sout0_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) : Vec F S128x128 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- The query output's pieces in this case tile its block, so they cover it. -/
theorem cover0_B_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S1x1024x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S1x1024x128.size (by sl_kernel_rfl) y
/-- What this case leaves in the query output's staging buffer: its pieces read back. -/
def out0_B_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S1x1024x128 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)
/-- The accumulator's pieces in this case cover it. -/
theorem scover0_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1 S128x128.size (by sl_kernel_rfl) y
/-- What this case leaves in the accumulator: its pieces read back. -/
def sout0_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S128x128 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- The query output's pieces in this case tile its block, so they cover it. -/
theorem cover0_C_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S1x1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S1x1024x128.size (by sl_kernel_rfl) y
/-- What this case leaves in the query output's staging buffer: its pieces read back. -/
def out0_C_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S1x1024x128 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)
/-- The accumulator's pieces in this case cover it. -/
theorem scover0_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S128x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S128x128.size (by sl_kernel_rfl) y
/-- What this case leaves in the accumulator: its pieces read back. -/
def sout0_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S128x128 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)
/-- The second output's pieces in this case cover its block. -/
theorem cover0_C_8 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S1x128x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x128x128.size (by sl_kernel_rfl) y
/-- What this case leaves in the second output's staging buffer: its pieces read back. -/
def out0_C_8 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S1x128x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-! ## The cases at a point: its memrefs and its input blocks -/

variable (V : (c : Dev nD) → (b : Ref sig .tc) → Buf (Elt F) ((c : Thread nD τ).loc b))

def scA_at (c : Dev nD) (t : Fin cfg0.N) (hc0 : cond0_0 (grid0.coords t)) (hc1 : ¬cond0_1 (grid0.coords t)) : Vec F S128x128 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t)
def scB_at (c : Dev nD) (t : Fin cfg0.N) (hc0 : ¬cond0_0 (grid0.coords t)) (hc1 : ¬cond0_1 (grid0.coords t)) (xs0 : Vec F S128x128 .f32) : Vec F S128x128 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def scC_at (c : Dev nD) (t : Fin cfg0.N) (hc0 : ¬cond0_0 (grid0.coords t)) (hc1 : cond0_1 (grid0.coords t)) (xs0 : Vec F S128x128 .f32) : Vec F S128x128 .f32 :=
  sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def qA_at (c : Dev nD) (t : Fin cfg0.N) (hc0 : cond0_0 (grid0.coords t)) (hc1 : ¬cond0_1 (grid0.coords t)) : Vec F S1x1024x128 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t)
def qB_at (c : Dev nD) (t : Fin cfg0.N) (hc0 : ¬cond0_0 (grid0.coords t)) (hc1 : ¬cond0_1 (grid0.coords t)) (xs0 : Vec F S128x128 .f32) : Vec F S1x1024x128 .bf16 :=
  out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def qC_at (c : Dev nD) (t : Fin cfg0.N) (hc0 : ¬cond0_0 (grid0.coords t)) (hc1 : cond0_1 (grid0.coords t)) (xs0 : Vec F S128x128 .f32) : Vec F S1x1024x128 .bf16 :=
  out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def kvC_at (c : Dev nD) (t : Fin cfg0.N) (hc0 : ¬cond0_0 (grid0.coords t)) (hc1 : cond0_1 (grid0.coords t)) (xs0 : Vec F S128x128 .f32) : Vec F S1x128x128 .f32 :=
  out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0

/-- The two conditions exclude each other: a point is not both a first and a last row tile. -/
theorem not_c1_of_mod0 (t : Fin cfg0.N) (h0 : t.val % 4 = 0) : ¬cond0_1 (grid0.coords t) := fun h => by
  have := (hcond0_1 t).mp h; omega
theorem not_c0_of_mod (t : Fin cfg0.N) (h0 : ¬t.val % 4 = 0) : ¬cond0_0 (grid0.coords t) := fun h => h0 ((hcond0_0 t).mp h)
theorem not_c1_of_mod (t : Fin cfg0.N) (h1 : ¬t.val % 4 = 3) : ¬cond0_1 (grid0.coords t) := fun h => h1 ((hcond0_1 t).mp h)

/-! ## The accumulator point by point -/

/-- THE ACCUMULATION. What the accumulator holds after the body at position `n`: at a first row tile what the reset
    case leaves; elsewhere what the point's case leaves over what the point before left. -/
def scAt0 (c : Dev nD) : (n : ℕ) → n < cfg0.N → Vec F S128x128 .f32
  | 0, hn => scA_at V c ⟨0, hn⟩ ((hcond0_0 ⟨0, hn⟩).mpr (Nat.zero_mod _)) (not_c1_of_mod0 ⟨0, hn⟩ (Nat.zero_mod _))
  | n + 1, hn =>
    if h0 : (n + 1) % 4 = 0 then
      scA_at V c ⟨n + 1, hn⟩ ((hcond0_0 ⟨n + 1, hn⟩).mpr h0) (not_c1_of_mod0 ⟨n + 1, hn⟩ h0)
    else
      if h1 : (n + 1) % 4 = 3 then
        scC_at V c ⟨n + 1, hn⟩ (not_c0_of_mod ⟨n + 1, hn⟩ h0) ((hcond0_1 ⟨n + 1, hn⟩).mpr h1) (scAt0 c n (Nat.lt_of_succ_lt hn))
      else
        scB_at V c ⟨n + 1, hn⟩ (not_c0_of_mod ⟨n + 1, hn⟩ h0) (not_c1_of_mod ⟨n + 1, hn⟩ h1) (scAt0 c n (Nat.lt_of_succ_lt hn))

/-- What the point before `t` left in the accumulator (for `t` not the first point). -/
def scPrev (c : Dev nD) (t : Fin cfg0.N) : Vec F S128x128 .f32 :=
  scAt0 V c (t.val - 1) (Nat.lt_of_le_of_lt (Nat.sub_le _ _) t.isLt)

theorem scAt0_A (c : Dev nD) (t : Fin cfg0.N) (h0 : t.val % 4 = 0) :
    scAt0 V c t.val t.isLt = scA_at V c t ((hcond0_0 t).mpr h0) (not_c1_of_mod0 t h0) := by
  obtain ⟨n, hn⟩ := t
  cases n with
  | zero => rfl
  | succ n => exact dif_pos h0
theorem scAt0_B (c : Dev nD) (t : Fin cfg0.N) (h0 : ¬t.val % 4 = 0) (h1 : ¬t.val % 4 = 3) :
    scAt0 V c t.val t.isLt = scB_at V c t (not_c0_of_mod t h0) (not_c1_of_mod t h1) (scPrev V c t) := by
  obtain ⟨n, hn⟩ := t
  cases n with
  | zero => exact absurd (Nat.zero_mod _) h0
  | succ n => exact (dif_neg h0).trans (dif_neg h1)
theorem scAt0_C (c : Dev nD) (t : Fin cfg0.N) (h0 : ¬t.val % 4 = 0) (h1 : t.val % 4 = 3) :
    scAt0 V c t.val t.isLt = scC_at V c t (not_c0_of_mod t h0) ((hcond0_1 t).mpr h1) (scPrev V c t) := by
  obtain ⟨n, hn⟩ := t
  cases n with
  | zero => exact absurd (Nat.zero_mod _) h0
  | succ n => exact (dif_neg h0).trans (dif_pos h1)

/-- What the body leaves in the query output's buffer at point `t`. -/
def after7 (c : Dev nD) (t : Fin cfg0.N) : Vec F S1x1024x128 .bf16 :=
  if h0 : t.val % 4 = 0 then qA_at V c t ((hcond0_0 t).mpr h0) (not_c1_of_mod0 t h0)
  else if h1 : t.val % 4 = 3 then qC_at V c t (not_c0_of_mod t h0) ((hcond0_1 t).mpr h1) (scPrev V c t)
  else qB_at V c t (not_c0_of_mod t h0) (not_c1_of_mod t h1) (scPrev V c t)
/-- What the body leaves in the second output's buffer at point `t`: the copied accumulator at a last row tile; elsewhere
    the buffer is idle and this value is never consulted. -/
def after8 (c : Dev nD) (t : Fin cfg0.N) : Vec F S1x128x128 .f32 :=
  if h1 : t.val % 4 = 3 then kvC_at V c t (fun h => by have := (hcond0_0 t).mp h; omega) ((hcond0_1 t).mpr h1) (scPrev V c t)
  else VO0_8.read (Elt F) VO0_8.junk

/-! ## The invariant and the proof data -/

/-- The region's invariant before position `n`: before the first point the resting one; afterwards the accumulator at
    what the point before left, the other kernel's staging buffers, the generator register at some state. -/
def PhiS (c : Dev nD) : (n : ℕ) → n ≤ cfg0.N → sProp 𝕄
  | 0, _ => Pipeline.ΦA spec0 c
  | n + 1, hn => iprop(iprop(owns (c : Thread nD τ) scM0 fullShare (scAt0 V c n hn) ∗ restB (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (scAt0 V c n hn) ∗ restB (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (scAt0 V c (n - 1) (by omega)) ∗ restB (F := F) c) ∗ (∃ r, prngReg c r)) := by
  cases n with
  | zero => exact absurd rfl hz
  | succ n => rfl

/-- The proof data of the first pipeline on core `c`: the arrays as the region finds them; after the body each input's
    buffer at its block, the query output's at the point's queries, the second output's at the copied accumulator;
    the invariant carries the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => after7 V c t
    | ⟨8, _⟩ => after8 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = after7 V c t := by dsimp only [dat0]
theorem after0_8 (c : Dev nD) (t : Fin cfg0.N) : (dat0 V c).after 8 t = after8 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.Kernel.Hand

end
-- ==== Proof.K.RegionA.Body.lean ====
import proofs.«128367_j40510131536516_1_alg».proof.Proof.K.RegionA.Dat

/-!
# The projection kernel: its body obligation

At every point the body, handed the invariant (the accumulator at what the point before left, or at anything before
the first point), the inputs' buffers at their blocks and the outputs' buffers, runs to the invariant of the next
point (the accumulator at this point's contents) with each buffer at what the proof data says: by cases on the
point's residue mod 4, each case its run.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 4 = 0
  · have hc0 : cond0_0 (grid0.coords t) := (hcond0_0 t).mpr h0
    have hc1 : ¬cond0_1 (grid0.coords t) := not_c1_of_mod0 t h0
    rw [Dat.leavesExact_idle (dat0 V c) 8 t (idleAt0_8 t hc1) (noFlush0_8 t hc1)]
    rw [scAt0_A V c t h0, show after7 V c t = qA_at V c t hc0 hc1 from dif_pos h0]
    unfold scA_at qA_at sout0_A out0_A_7; (try dsimp only)
    by_cases hz : t.val = 0
    · rw [PhiS_castSucc V c t, PhiS_zero V c _ _ hz, PhiA0_eq]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
    · rw [PhiS_castSucc V c t, PhiS_pos V c _ _ hz]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexists _; iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
  · have hc0 : ¬cond0_0 (grid0.coords t) := not_c0_of_mod t h0
    have hz : t.val ≠ 0 := fun e => h0 (by rw [e])
    by_cases h1 : t.val % 4 = 3
    · have hc1 : cond0_1 (grid0.coords t) := (hcond0_1 t).mpr h1
      rw [show (dat0 V c).leavesExact 8 t = owns (c : Thread nD τ) (ms0_8 t) fullShare ((dat0 V c).after 8 t) from by
        unfold Dat.leavesExact; rw [liveAt0_8 t hc1], after0_8]
      rw [scAt0_C V c t h0 h1, show after7 V c t = qC_at V c t hc0 hc1 (scPrev V c t) from (dif_neg h0).trans (dif_pos h1),
        show after8 V c t = kvC_at V c t hc0 hc1 (scPrev V c t) from dif_pos h1]
      unfold scC_at qC_at kvC_at sout0_C out0_C_7 out0_C_8; (try dsimp only)
      rw [PhiS_castSucc V c t, PhiS_pos V c _ _ hz]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (scPrev V c t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    · have hc1 : ¬cond0_1 (grid0.coords t) := not_c1_of_mod t h1
      rw [Dat.leavesExact_idle (dat0 V c) 8 t (idleAt0_8 t hc1) (noFlush0_8 t hc1)]
      rw [scAt0_B V c t h0 h1, show after7 V c t = qB_at V c t hc0 hc1 (scPrev V c t) from (dif_neg h0).trans (dif_neg h1)]
      unfold scB_at qB_at sout0_B out0_B_7; (try dsimp only)
      rw [PhiS_castSucc V c t, PhiS_pos V c _ _ hz]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (scPrev V c t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.RegionB.lean ====
/- Region 1 of @main (custom_call 1, `cc1__kernel_b`, pipeline `cfg1`): the frame half, at any float
   interpretation and at a parameter `V`, the TensorCore's buffer contents when the region is entered.
   Each window's block at a grid point; what the body leaves in the output window's buffer (one whole-buffer
   store of the payload of the two input blocks); the body's triple; the pipeline's proof data; the body
   obligation at every point. -/
import proofs.«128367_j40510131536516_1_alg».proof.Proof.Gen.Kernel.Launch
import proofs.«128367_j40510131536516_1_alg».proof.Proof.Gen.Kernel.Skeleton
import proofs.«128367_j40510131536516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`: the window's rectangle at `t` read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data whose array is `V`'s and
    whose body leaves the block in place: the window is fetched at every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: three whole-buffer rectangles -/

abbrev r1_q : Rect S1x4096x128 := Rect.unit (s := S1x4096x128) ![0, 0, 0] S1x4096x128.size inb_S1x4096x128_S1x4096x128_0_0_0
abbrev r1_kv : Rect S1x128x128 := Rect.unit (s := S1x128x128) ![0, 0, 0] S1x128x128.size inb_S1x128x128_S1x128x128_0_0_0
abbrev r1_o : Rect S1x4096x128 := Rect.unit (s := S1x4096x128) ![0, 0, 0] S1x4096x128.size inb_S1x4096x128_S1x4096x128_0_0_0

/-! ## What the body leaves in the output window's buffer -/

/-- Window 2's buffer after the body, from the two input blocks: its one store, of the payload of the two loads. -/
def out1_2 (x0 : Vec F S1x4096x128 .bf16) (x1 : Vec F S1x128x128 .f32) : Vec F S1x4096x128 .f32 :=
  View.canon [⟨r1_o, k1_pay1 (View.ld x0 r1_q) (View.ld x1 r1_kv)⟩]

/-- The one store's rectangle is the whole buffer, so it covers every index. -/
theorem cover1_2 (p0 : Vec F S1x4096x128 .f32) (y : S1x4096x128.Idx) :
    ∃ pc ∈ ([⟨r1_o, p0⟩] : List (View.Piece (Elt F) S1x4096x128 .f32)), y ∈ pc.1.set :=
  View.cover_of_tiled [⟨r1_o, p0⟩] S1x4096x128.size (by rfl) y

/-! ## The body's triple -/

set_option maxHeartbeats 1000000 in
/-- The kernel body on whole memrefs, the inputs' at contents `x0`, `x1` and the output's at anything, runs to the
    continuation holding the inputs' as they were and the output's at `out1_2 x0 x1`: two loads, a load of the
    output's own buffer whose value is not used, one store. -/
theorem sound_kernel1 (c : Dev nD) (E : Set ℕ) (i : grid1.Coords) (arg1 : Memref sig .tc .vmem S1x4096x128 .bf16) (harg1 : arg1.IsWhole)
    (arg2 : Memref sig .tc .vmem S1x128x128 .f32) (harg2 : arg2.IsWhole) (arg3 : Memref sig .tc .vmem S1x4096x128 .f32) (harg3 : arg3.IsWhole)
    (x0 : Vec F S1x4096x128 .bf16) (x1 : Vec F S1x128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at `out1_2` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Run.lean ====
import proofs.«128367_j40510131536516_1_alg».proof.Proof.K.RegionA.Body
import proofs.«128367_j40510131536516_1_alg».proof.Proof.K.RegionB
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

/-!
# The run of @main: two kernel regions, from the launch to the return

@main calls the first pipeline, then the second, and returns; no host operation stands between them. The
TensorCore's unscoped buffers are followed through the two calls: at launch they hold the memory `m`; the first
region leaves each of its nine arrays at what its write-backs fold to (the seven inputs as entered, the two outputs
at the fold over all sixteen points) and every other buffer as entered; the second region, entered from those
contents, does the same with its three arrays. Each region is a segment over the thread state "every unscoped
buffer at the boundary's contents, the generator register at some state, nothing owed"; the launch theorem for a
list of segments then gives termination and reads the last thread state against the final memory: the result array
holds the second region's output fold, and each argument, being an input array of the first region and no array of
the second, still holds its launch contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the memory `m`. -/
abbrev W0 : Dev nD → Valuation τ sig (Elt F) := fun c b => m ((c : Dev nD), b)
/-- The same read at the TensorCore's references: what the first region is entered from. -/
abbrev V0 : (c : Dev nD) → (b : Ref sig .tc) → Buf (Elt F) ((c : Thread nD τ).loc b) := fun c b => W0 m c b

/-- At the first region's exit: each of its arrays at the fold of its write-backs over all the points (an input's
    fold is the array as entered), every other buffer as entered. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the second region is entered from. -/
abbrev V2 : (c : Dev nD) → (b : Ref sig .tc) → Buf (Elt F) ((c : Thread nD τ).loc b) := fun c b => W2 m c b
/-- At the first region's exit each of its arrays holds its fold, and every other buffer what it held at entry. -/
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- The first region's two outputs are what the second region reads. -/
theorem V2_main_v0_0 (c : Dev nD) : V2 m c main_v0_0 = (dat0 (V0 m) c).arrAt 7 cfg0.N := W2_arr m c 7
theorem V2_main_v0_1 (c : Dev nD) : V2 m c main_v0_1 = (dat0 (V0 m) c).arrAt 8 cfg0.N := W2_arr m c 8

/-- At the second region's exit: each of its arrays at its fold, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched: each is an input array of the first region, whose fold is the array as
    entered, and no array of the second region -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V0 m) c).arrAt_in 1 rfl _).trans (A_eq0 (V0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (V0 m) c).arrAt_in 2 rfl _).trans (A_eq0 (V0 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = W0 m c (Proc.devRef .tc main_arg3) := (W2_arr m c 3).trans (((dat0 (V0 m) c).arrAt_in 3 rfl _).trans (A_eq0 (V0 m) c 3))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W2 m c (Proc.devRef .tc main_arg4) := W4_of_ne m c main_arg4 (by decide)
    _ = W0 m c (Proc.devRef .tc main_arg4) := (W2_arr m c 4).trans (((dat0 (V0 m) c).arrAt_in 4 rfl _).trans (A_eq0 (V0 m) c 4))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W2 m c (Proc.devRef .tc main_arg5) := W4_of_ne m c main_arg5 (by decide)
    _ = W0 m c (Proc.devRef .tc main_arg5) := (W2_arr m c 5).trans (((dat0 (V0 m) c).arrAt_in 5 rfl _).trans (A_eq0 (V0 m) c 5))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W2 m c (Proc.devRef .tc main_arg6) := W4_of_ne m c main_arg6 (by decide)
    _ = W0 m c (Proc.devRef .tc main_arg6) := (W2_arr m c 6).trans (((dat0 (V0 m) c).arrAt_in 6 rfl _).trans (A_eq0 (V0 m) c 6))
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱run : Variants := Variants.none
/-- No core owes another anything: no level is assigned. -/
abbrev Lrun : GSem nD τ sig → Finset Unit := fun _ => ∅
abbrev lvrun : GSem nD τ sig → Unit → ℕ := fun _ _ => 0
/-- What rides beside the buffers through both regions: the core's generator register at some state and its dues,
    at nothing. -/
abbrev Rrun (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at the launch contents, left at the
    contents after it. Its arrays are split out of the unscoped buffers and put back at their folds; the generator
    register and the scoped buffers no window stages make the resting invariant, which is the invariant before the
    first point, and the invariant after the last point gives them back; nothing owed; no semaphore of its own. -/
def reg0 : Pipeline.RegionSeg (pcfgs (F := F)) adm (pdats m) () defs₀ 𝒱run Lrun lvrun 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ Lrun lvrun 0 fun _ _ => rfl
  pre c := iprop(StableHlo.held (c : Thread nD τ) (Pipeline.ucRefs τ sig) (W0 m c) ∗ Rrun c)
  post c := iprop(StableHlo.held (c : Thread nD τ) (Pipeline.ucRefs τ sig) (W2 m c) ∗ Rrun c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the contents the first leaves, left at the last
    boundary's. Its invariant is the resting one at every point. -/
def reg1 : Pipeline.RegionSeg (pcfgs (F := F)) adm (pdats m) () defs₀ 𝒱run Lrun lvrun 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ Lrun lvrun 1 fun _ _ => rfl
  pre c := iprop(StableHlo.held (c : Thread nD τ) (Pipeline.ucRefs τ sig) (W2 m c) ∗ Rrun c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱run Lrun lvrun) :=
  [ .region (reg0 m), .region (reg1 m) ]
/-- @main is the run of the segments. -/
theorem main_run (c : Dev nD) : main (F := F) c = Pipeline.Seg.run (segs m) :=
  main_segs adm (pdats m) () 𝒱run Lrun lvrun (reg0 m) (reg1 m) c

set_option backward.isDefEq.respectTransparency.types false in
/-- THE RUN, NAMING THE RESULT: from any memory with zero counters, every weakly fair execution of @main on the
    TensorCores terminates, nothing faulting, and every final memory holds in the result array the second region's
    output fold (at the entry contents the first region leaves) and in each argument array its launch contents. -/
theorem run_value : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱run Lrun lvrun m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rrun c)) (Tₙ := Tₙ m)
    (hch := ⟨fun _ => .rfl, fun _ => .rfl, fun _ => .rfl⟩)
    (hinit := by
      refine Pipeline.initEach Lrun lvrun fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_arr m c 2),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

/-- THE FRAME: the same run, keeping only that every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.KI.RegionA.Base.lean ====
import proofs.«128367_j40510131536516_1_alg».proof.Proof.Gen.KernelIdeal.Launch
import proofs.«128367_j40510131536516_1_alg».proof.Proof.Gen.KernelIdeal.Skeleton
import proofs.«128367_j40510131536516_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

/-!
# The projection kernel (first pallas_call): what its runs are stated over

The first kernel runs on a 4 × 4 grid (batch `n`, row tile `mm`; point `t = 4 n + mm`). At each point it reads a
[1024, 1024] tile of `X` and the three weight matrices and biases (whose blocks never move), writes the tile's
queries, and adds the tile's `Kᵀ V` into a [128, 128] accumulator it keeps between points: reset where `mm = 0`,
copied to the second output where `mm = 3`. Here: each window's block at a point; that an input window's buffer
holds its block at every point, fetched there or not; the two branch conditions as congruences of the point;
where the second output is idle; and the kernel's memrefs by name.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point: where it was not fetched the block index has
    not moved and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions -/

/-- The reset's condition (`mm = 0`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The copy-out's condition (`mm = 3`), from the grid coordinates. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from the last row tile the second output is idle: nothing is stored into it, -/
theorem idleAt0_8 : ∀ t : Fin cfg0.N, ¬cond0_1 (grid0.coords t) → cfg0.idle 8 (grid0.coords t) = true := by decide +kernel
/-- and it is not written back there. -/
theorem noFlush0_8 : ∀ t : Fin cfg0.N, ¬cond0_1 (grid0.coords t) → (cfg0.win 8).flush t = false := by decide +kernel
/-- At the last row tile it is live. -/
theorem liveAt0_8 : ∀ t : Fin cfg0.N, cond0_1 (grid0.coords t) → cfg0.idle 8 (grid0.coords t) = false := by decide +kernel

/-! ## The kernel's memrefs -/

/-- One staging buffer of each output window, through which its contents are stated (the choice does not matter). -/
abbrev VO0_7 : View sig .tc .vmem S1x1024x128 .bf16 := (Memref.whole cc0_stg7_0 : Memref sig .tc .vmem S1x1024x128 .bf16).view
abbrev VO0_8 : View sig .tc .vmem S1x128x128 .f32 := (Memref.whole cc0_stg8_0 : Memref sig .tc .vmem S1x128x128 .f32).view
/-- Each window's current staging memref at point `t`, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x128 .f32 := win0_8.stage (cfg0.slots t 8)
abbrev hs0_8 (t : Fin cfg0.N) : (ms0_8 t).IsWhole := hstage0_8 ((cfg0.slots t 8).cast nbuf0_8)
/-- The accumulator: a whole scoped buffer of the kernel's own. -/
abbrev scM0 : Memref sig .tc .vmem S128x128 .f32 := Memref.whole cc0_scratch0
abbrev VS0 : View sig .tc .vmem S128x128 .f32 := scM0.view

/-- The second kernel's staging buffers, each whole at some contents: scoped buffers this kernel never touches. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant opened: the accumulator at some contents, the other kernel's staging buffers, the
    generator register at some state. -/
theorem PhiA0_eq (c : Dev nD) :
    (Pipeline.ΦA spec0 c : sProp 𝕄)
      = iprop(iprop((∃ d, owns (c : Thread nD τ) scM0 fullShare d) ∗ restB (F := F) c) ∗ (∃ r, prngReg c r)) := by
  unfold Pipeline.ΦA restB; rw [scopedRest0_eq]; simp only [scM0, owns_whole]; try rfl

end Cert.KernelIdeal.Hand

end
-- ==== Proof.KI.RegionA.RunA.lean ====
import proofs.«128367_j40510131536516_1_alg».proof.Proof.KI.RegionA.Base

/-!
# The projection kernel's body at the first row tile of a batch (the accumulator is reset; nothing is copied out)

On whole staging memrefs — the seven inputs at their contents, the query output at anything, the second output
at contents it leaves untouched, the accumulator at anything — the body runs to its
continuation with the inputs as they were and each buffer it stores into holding its stores, as a list of pieces
(last store first). The pieces are what the run finds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) :
    Σ' (L7 : List (View.Piece (Elt F) S1x1024x128 .bf16)), { LS0 : List (View.Piece (Elt F) S128x128 .f32) //
      ∀ (e8 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare e8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare e8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11) K } := by
  refine ⟨?_, ?_, fun e8 E K => ?run⟩
  case run =>
    haveI : Fact (cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%ds0, %fs0, -, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]
    · iexists _; isplitr; · ipureintro; exact harg10.read_unread _
      iexact H10
    iexists _; iexact HS0

end Cert.KernelIdeal.Hand

end
-- ==== Proof.KI.RegionA.RunB.lean ====
import proofs.«128367_j40510131536516_1_alg».proof.Proof.KI.RegionA.Base

/-!
# The projection kernel's body at a middle row tile (no reset, nothing copied out)

On whole staging memrefs — the seven inputs at their contents, the query output at anything, the second output
at contents it leaves untouched, the accumulator at what the point before left — the body runs to its
continuation with the inputs as they were and each buffer it stores into holding its stores, as a list of pieces
(last store first). The pieces are what the run finds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    Σ' (L7 : List (View.Piece (Elt F) S1x1024x128 .bf16)), { LS0 : List (View.Piece (Elt F) S128x128 .f32) //
      ∀ (e8 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare e8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare e8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11) K } := by
  refine ⟨?_, ?_, fun e8 E K => ?run⟩
  case run =>
    haveI : Fact (¬cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg10.eq_unread hf10
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]
    · iexists _; isplitr; · ipureintro; exact harg10.read_unread _
      iexact H10
    iexists _; iexact HS0

end Cert.KernelIdeal.Hand

end
-- ==== Proof.KI.RegionA.RunC.lean ====
import proofs.«128367_j40510131536516_1_alg».proof.Proof.KI.RegionA.Base

/-!
# The projection kernel's body at the last row tile of a batch (no reset; the accumulator is copied to the second output)

On whole staging memrefs — the seven inputs at their contents, the query output at anything, the second output
at anything, the accumulator at what the point before left — the body runs to its
continuation with the inputs as they were and each buffer it stores into holding its stores, as a list of pieces
(last store first). The pieces are what the run finds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    Σ' (L7 : List (View.Piece (Elt F) S1x1024x128 .bf16)) (L8 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11) K } := by
  refine ⟨?_, ?_, ?_, fun E K => ?run⟩
  case run =>
    haveI : Fact (¬cond0_0 i) := ⟨hc0⟩
    haveI : Fact (cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    iexists _; iexact HS0

end Cert.KernelIdeal.Hand

end
-- ==== Proof.KI.RegionA.Dat.lean ====
import proofs.«128367_j40510131536516_1_alg».proof.Proof.KI.RegionA.RunA
import proofs.«128367_j40510131536516_1_alg».proof.Proof.KI.RegionA.RunB
import proofs.«128367_j40510131536516_1_alg».proof.Proof.KI.RegionA.RunC

/-!
# The projection kernel: what it leaves point by point, and its proof data

Each of the three cases (first, middle, last row tile of a batch) leaves the tile's queries in the query output's
buffer and an updated accumulator; the last also copies the accumulator to the second output. The accumulator after a
point is defined by recursion on the point — reset at a first row tile, otherwise what the case leaves over what the
point before left — and the region's invariant carries it from point to point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The query output's pieces in this case tile its block, so they cover it. -/
theorem cover0_A_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (y : S1x1024x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S1x1024x128.size (by sl_kernel_rfl) y
/-- What this case leaves in the query output's staging buffer: its pieces read back. -/
def out0_A_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) : Vec F S1x1024x128 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)
/-- The accumulator's pieces in this case cover it. -/
theorem scover0_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (y : S128x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.1 S128x128.size (by sl_kernel_rfl) y
/-- What this case leaves in the accumulator: its pieces read back. -/
def sout0_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) : Vec F S128x128 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- The query output's pieces in this case tile its block, so they cover it. -/
theorem cover0_B_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S1x1024x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S1x1024x128.size (by sl_kernel_rfl) y
/-- What this case leaves in the query output's staging buffer: its pieces read back. -/
def out0_B_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S1x1024x128 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)
/-- The accumulator's pieces in this case cover it. -/
theorem scover0_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1 S128x128.size (by sl_kernel_rfl) y
/-- What this case leaves in the accumulator: its pieces read back. -/
def sout0_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S128x128 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- The query output's pieces in this case tile its block, so they cover it. -/
theorem cover0_C_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S1x1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S1x1024x128.size (by sl_kernel_rfl) y
/-- What this case leaves in the query output's staging buffer: its pieces read back. -/
def out0_C_7 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S1x1024x128 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)
/-- The accumulator's pieces in this case cover it. -/
theorem scover0_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S128x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S128x128.size (by sl_kernel_rfl) y
/-- What this case leaves in the accumulator: its pieces read back. -/
def sout0_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S128x128 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)
/-- The second output's pieces in this case cover its block. -/
theorem cover0_C_8 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) (y : S1x128x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x128x128.size (by sl_kernel_rfl) y
/-- What this case leaves in the second output's staging buffer: its pieces read back. -/
def out0_C_8 (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i)
    (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) : Vec F S1x128x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-! ## The cases at a point: its memrefs and its input blocks -/

variable (V : (c : Dev nD) → (b : Ref sig .tc) → Buf (Elt F) ((c : Thread nD τ).loc b))

def scA_at (c : Dev nD) (t : Fin cfg0.N) (hc0 : cond0_0 (grid0.coords t)) (hc1 : ¬cond0_1 (grid0.coords t)) : Vec F S128x128 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t)
def scB_at (c : Dev nD) (t : Fin cfg0.N) (hc0 : ¬cond0_0 (grid0.coords t)) (hc1 : ¬cond0_1 (grid0.coords t)) (xs0 : Vec F S128x128 .f32) : Vec F S128x128 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def scC_at (c : Dev nD) (t : Fin cfg0.N) (hc0 : ¬cond0_0 (grid0.coords t)) (hc1 : cond0_1 (grid0.coords t)) (xs0 : Vec F S128x128 .f32) : Vec F S128x128 .f32 :=
  sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def qA_at (c : Dev nD) (t : Fin cfg0.N) (hc0 : cond0_0 (grid0.coords t)) (hc1 : ¬cond0_1 (grid0.coords t)) : Vec F S1x1024x128 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t)
def qB_at (c : Dev nD) (t : Fin cfg0.N) (hc0 : ¬cond0_0 (grid0.coords t)) (hc1 : ¬cond0_1 (grid0.coords t)) (xs0 : Vec F S128x128 .f32) : Vec F S1x1024x128 .bf16 :=
  out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def qC_at (c : Dev nD) (t : Fin cfg0.N) (hc0 : ¬cond0_0 (grid0.coords t)) (hc1 : cond0_1 (grid0.coords t)) (xs0 : Vec F S128x128 .f32) : Vec F S1x1024x128 .bf16 :=
  out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0
def kvC_at (c : Dev nD) (t : Fin cfg0.N) (hc0 : ¬cond0_0 (grid0.coords t)) (hc1 : cond0_1 (grid0.coords t)) (xs0 : Vec F S128x128 .f32) : Vec F S1x128x128 .f32 :=
  out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) hc0 hc1 (iblk0 V c 0 t) (iblk0 V c 1 t) (iblk0 V c 2 t) (iblk0 V c 3 t) (iblk0 V c 4 t) (iblk0 V c 5 t) (iblk0 V c 6 t) xs0

/-- The two conditions exclude each other: a point is not both a first and a last row tile. -/
theorem not_c1_of_mod0 (t : Fin cfg0.N) (h0 : t.val % 4 = 0) : ¬cond0_1 (grid0.coords t) := fun h => by
  have := (hcond0_1 t).mp h; omega
theorem not_c0_of_mod (t : Fin cfg0.N) (h0 : ¬t.val % 4 = 0) : ¬cond0_0 (grid0.coords t) := fun h => h0 ((hcond0_0 t).mp h)
theorem not_c1_of_mod (t : Fin cfg0.N) (h1 : ¬t.val % 4 = 3) : ¬cond0_1 (grid0.coords t) := fun h => h1 ((hcond0_1 t).mp h)

/-! ## The accumulator point by point -/

/-- THE ACCUMULATION. What the accumulator holds after the body at position `n`: at a first row tile what the reset
    case leaves; elsewhere what the point's case leaves over what the point before left. -/
def scAt0 (c : Dev nD) : (n : ℕ) → n < cfg0.N → Vec F S128x128 .f32
  | 0, hn => scA_at V c ⟨0, hn⟩ ((hcond0_0 ⟨0, hn⟩).mpr (Nat.zero_mod _)) (not_c1_of_mod0 ⟨0, hn⟩ (Nat.zero_mod _))
  | n + 1, hn =>
    if h0 : (n + 1) % 4 = 0 then
      scA_at V c ⟨n + 1, hn⟩ ((hcond0_0 ⟨n + 1, hn⟩).mpr h0) (not_c1_of_mod0 ⟨n + 1, hn⟩ h0)
    else
      if h1 : (n + 1) % 4 = 3 then
        scC_at V c ⟨n + 1, hn⟩ (not_c0_of_mod ⟨n + 1, hn⟩ h0) ((hcond0_1 ⟨n + 1, hn⟩).mpr h1) (scAt0 c n (Nat.lt_of_succ_lt hn))
      else
        scB_at V c ⟨n + 1, hn⟩ (not_c0_of_mod ⟨n + 1, hn⟩ h0) (not_c1_of_mod ⟨n + 1, hn⟩ h1) (scAt0 c n (Nat.lt_of_succ_lt hn))

/-- What the point before `t` left in the accumulator (for `t` not the first point). -/
def scPrev (c : Dev nD) (t : Fin cfg0.N) : Vec F S128x128 .f32 :=
  scAt0 V c (t.val - 1) (Nat.lt_of_le_of_lt (Nat.sub_le _ _) t.isLt)

theorem scAt0_A (c : Dev nD) (t : Fin cfg0.N) (h0 : t.val % 4 = 0) :
    scAt0 V c t.val t.isLt = scA_at V c t ((hcond0_0 t).mpr h0) (not_c1_of_mod0 t h0) := by
  obtain ⟨n, hn⟩ := t
  cases n with
  | zero => rfl
  | succ n => exact dif_pos h0
theorem scAt0_B (c : Dev nD) (t : Fin cfg0.N) (h0 : ¬t.val % 4 = 0) (h1 : ¬t.val % 4 = 3) :
    scAt0 V c t.val t.isLt = scB_at V c t (not_c0_of_mod t h0) (not_c1_of_mod t h1) (scPrev V c t) := by
  obtain ⟨n, hn⟩ := t
  cases n with
  | zero => exact absurd (Nat.zero_mod _) h0
  | succ n => exact (dif_neg h0).trans (dif_neg h1)
theorem scAt0_C (c : Dev nD) (t : Fin cfg0.N) (h0 : ¬t.val % 4 = 0) (h1 : t.val % 4 = 3) :
    scAt0 V c t.val t.isLt = scC_at V c t (not_c0_of_mod t h0) ((hcond0_1 t).mpr h1) (scPrev V c t) := by
  obtain ⟨n, hn⟩ := t
  cases n with
  | zero => exact absurd (Nat.zero_mod _) h0
  | succ n => exact (dif_neg h0).trans (dif_pos h1)

/-- What the body leaves in the query output's buffer at point `t`. -/
def after7 (c : Dev nD) (t : Fin cfg0.N) : Vec F S1x1024x128 .bf16 :=
  if h0 : t.val % 4 = 0 then qA_at V c t ((hcond0_0 t).mpr h0) (not_c1_of_mod0 t h0)
  else if h1 : t.val % 4 = 3 then qC_at V c t (not_c0_of_mod t h0) ((hcond0_1 t).mpr h1) (scPrev V c t)
  else qB_at V c t (not_c0_of_mod t h0) (not_c1_of_mod t h1) (scPrev V c t)
/-- What the body leaves in the second output's buffer at point `t`: the copied accumulator at a last row tile; elsewhere
    the buffer is idle and this value is never consulted. -/
def after8 (c : Dev nD) (t : Fin cfg0.N) : Vec F S1x128x128 .f32 :=
  if h1 : t.val % 4 = 3 then kvC_at V c t (fun h => by have := (hcond0_0 t).mp h; omega) ((hcond0_1 t).mpr h1) (scPrev V c t)
  else VO0_8.read (Elt F) VO0_8.junk

/-! ## The invariant and the proof data -/

/-- The region's invariant before position `n`: before the first point the resting one; afterwards the accumulator at
    what the point before left, the other kernel's staging buffers, the generator register at some state. -/
def PhiS (c : Dev nD) : (n : ℕ) → n ≤ cfg0.N → sProp 𝕄
  | 0, _ => Pipeline.ΦA spec0 c
  | n + 1, hn => iprop(iprop(owns (c : Thread nD τ) scM0 fullShare (scAt0 V c n hn) ∗ restB (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (scAt0 V c n hn) ∗ restB (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare (scAt0 V c (n - 1) (by omega)) ∗ restB (F := F) c) ∗ (∃ r, prngReg c r)) := by
  cases n with
  | zero => exact absurd rfl hz
  | succ n => rfl

/-- The proof data of the first pipeline on core `c`: the arrays as the region finds them; after the body each input's
    buffer at its block, the query output's at the point's queries, the second output's at the copied accumulator;
    the invariant carries the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => after7 V c t
    | ⟨8, _⟩ => after8 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = after7 V c t := by dsimp only [dat0]
theorem after0_8 (c : Dev nD) (t : Fin cfg0.N) : (dat0 V c).after 8 t = after8 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.KernelIdeal.Hand

end
-- ==== Proof.KI.RegionA.Body.lean ====
import proofs.«128367_j40510131536516_1_alg».proof.Proof.KI.RegionA.Dat

/-!
# The projection kernel: its body obligation

At every point the body, handed the invariant (the accumulator at what the point before left, or at anything before
the first point), the inputs' buffers at their blocks and the outputs' buffers, runs to the invariant of the next
point (the accumulator at this point's contents) with each buffer at what the proof data says: by cases on the
point's residue mod 4, each case its run.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  by_cases h0 : t.val % 4 = 0
  · have hc0 : cond0_0 (grid0.coords t) := (hcond0_0 t).mpr h0
    have hc1 : ¬cond0_1 (grid0.coords t) := not_c1_of_mod0 t h0
    rw [Dat.leavesExact_idle (dat0 V c) 8 t (idleAt0_8 t hc1) (noFlush0_8 t hc1)]
    rw [scAt0_A V c t h0, show after7 V c t = qA_at V c t hc0 hc1 from dif_pos h0]
    unfold scA_at qA_at sout0_A out0_A_7; (try dsimp only)
    by_cases hz : t.val = 0
    · rw [PhiS_castSucc V c t, PhiS_zero V c _ _ hz, PhiA0_eq]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
    · rw [PhiS_castSucc V c t, PhiS_pos V c _ _ hz]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexists _; iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
  · have hc0 : ¬cond0_0 (grid0.coords t) := not_c0_of_mod t h0
    have hz : t.val ≠ 0 := fun e => h0 (by rw [e])
    by_cases h1 : t.val % 4 = 3
    · have hc1 : cond0_1 (grid0.coords t) := (hcond0_1 t).mpr h1
      rw [show (dat0 V c).leavesExact 8 t = owns (c : Thread nD τ) (ms0_8 t) fullShare ((dat0 V c).after 8 t) from by
        unfold Dat.leavesExact; rw [liveAt0_8 t hc1], after0_8]
      rw [scAt0_C V c t h0 h1, show after7 V c t = qC_at V c t hc0 hc1 (scPrev V c t) from (dif_neg h0).trans (dif_pos h1),
        show after8 V c t = kvC_at V c t hc0 hc1 (scPrev V c t) from dif_pos h1]
      unfold scC_at qC_at kvC_at sout0_C out0_C_7 out0_C_8; (try dsimp only)
      rw [PhiS_castSucc V c t, PhiS_pos V c _ _ hz]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (scPrev V c t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    · have hc1 : ¬cond0_1 (grid0.coords t) := not_c1_of_mod t h1
      rw [Dat.leavesExact_idle (dat0 V c) 8 t (idleAt0_8 t hc1) (noFlush0_8 t hc1)]
      rw [scAt0_B V c t h0 h1, show after7 V c t = qB_at V c t hc0 hc1 (scPrev V c t) from (dif_neg h0).trans (dif_neg h1)]
      unfold scB_at qB_at sout0_B out0_B_7; (try dsimp only)
      rw [PhiS_castSucc V c t, PhiS_pos V c _ _ hz]
      · iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (scPrev V c t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the resting one back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.RegionB.lean ====
/- Region 1 of @main (custom_call 1, `cc1__kernel_b`, pipeline `cfg1`): the frame half, at any float
   interpretation and at a parameter `V`, the TensorCore's buffer contents when the region is entered.
   Each window's block at a grid point; what the body leaves in the output window's buffer (one whole-buffer
   store of the payload of the two input blocks); the body's triple; the pipeline's proof data; the body
   obligation at every point. -/
import proofs.«128367_j40510131536516_1_alg».proof.Proof.Gen.KernelIdeal.Launch
import proofs.«128367_j40510131536516_1_alg».proof.Proof.Gen.KernelIdeal.Skeleton
import proofs.«128367_j40510131536516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`: the window's rectangle at `t` read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data whose array is `V`'s and
    whose body leaves the block in place: the window is fetched at every point and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: three whole-buffer rectangles -/

abbrev r1_q : Rect S1x4096x128 := Rect.unit (s := S1x4096x128) ![0, 0, 0] S1x4096x128.size inb_S1x4096x128_S1x4096x128_0_0_0
abbrev r1_kv : Rect S1x128x128 := Rect.unit (s := S1x128x128) ![0, 0, 0] S1x128x128.size inb_S1x128x128_S1x128x128_0_0_0
abbrev r1_o : Rect S1x4096x128 := Rect.unit (s := S1x4096x128) ![0, 0, 0] S1x4096x128.size inb_S1x4096x128_S1x4096x128_0_0_0

/-! ## What the body leaves in the output window's buffer -/

/-- Window 2's buffer after the body, from the two input blocks: its one store, of the payload of the two loads. -/
def out1_2 (x0 : Vec F S1x4096x128 .bf16) (x1 : Vec F S1x128x128 .f32) : Vec F S1x4096x128 .f32 :=
  View.canon [⟨r1_o, k1_pay1 (View.ld x0 r1_q) (View.ld x1 r1_kv)⟩]

/-- The one store's rectangle is the whole buffer, so it covers every index. -/
theorem cover1_2 (p0 : Vec F S1x4096x128 .f32) (y : S1x4096x128.Idx) :
    ∃ pc ∈ ([⟨r1_o, p0⟩] : List (View.Piece (Elt F) S1x4096x128 .f32)), y ∈ pc.1.set :=
  View.cover_of_tiled [⟨r1_o, p0⟩] S1x4096x128.size (by rfl) y

/-! ## The body's triple -/

set_option maxHeartbeats 1000000 in
/-- The kernel body on whole memrefs, the inputs' at contents `x0`, `x1` and the output's at anything, runs to the
    continuation holding the inputs' as they were and the output's at `out1_2 x0 x1`: two loads, a load of the
    output's own buffer whose value is not used, one store. -/
theorem sound_kernel1 (c : Dev nD) (E : Set ℕ) (i : grid1.Coords) (arg1 : Memref sig .tc .vmem S1x4096x128 .bf16) (harg1 : arg1.IsWhole)
    (arg2 : Memref sig .tc .vmem S1x128x128 .f32) (harg2 : arg2.IsWhole) (arg3 : Memref sig .tc .vmem S1x4096x128 .f32) (harg3 : arg3.IsWhole)
    (x0 : Vec F S1x4096x128 .bf16) (x1 : Vec F S1x128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at `out1_2` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Run.lean ====
import proofs.«128367_j40510131536516_1_alg».proof.Proof.KI.RegionA.Body
import proofs.«128367_j40510131536516_1_alg».proof.Proof.KI.RegionB
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

/-!
# The run of @main: two kernel regions, from the launch to the return

@main calls the first pipeline, then the second, and returns; no host operation stands between them. The
TensorCore's unscoped buffers are followed through the two calls: at launch they hold the memory `m`; the first
region leaves each of its nine arrays at what its write-backs fold to (the seven inputs as entered, the two outputs
at the fold over all sixteen points) and every other buffer as entered; the second region, entered from those
contents, does the same with its three arrays. Each region is a segment over the thread state "every unscoped
buffer at the boundary's contents, the generator register at some state, nothing owed"; the launch theorem for a
list of segments then gives termination and reads the last thread state against the final memory: the result array
holds the second region's output fold, and each argument, being an input array of the first region and no array of
the second, still holds its launch contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the memory `m`. -/
abbrev W0 : Dev nD → Valuation τ sig (Elt F) := fun c b => m ((c : Dev nD), b)
/-- The same read at the TensorCore's references: what the first region is entered from. -/
abbrev V0 : (c : Dev nD) → (b : Ref sig .tc) → Buf (Elt F) ((c : Thread nD τ).loc b) := fun c b => W0 m c b

/-- At the first region's exit: each of its arrays at the fold of its write-backs over all the points (an input's
    fold is the array as entered), every other buffer as entered. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the second region is entered from. -/
abbrev V2 : (c : Dev nD) → (b : Ref sig .tc) → Buf (Elt F) ((c : Thread nD τ).loc b) := fun c b => W2 m c b
/-- At the first region's exit each of its arrays holds its fold, and every other buffer what it held at entry. -/
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- The first region's two outputs are what the second region reads. -/
theorem V2_main_v0_0 (c : Dev nD) : V2 m c main_v0_0 = (dat0 (V0 m) c).arrAt 7 cfg0.N := W2_arr m c 7
theorem V2_main_v0_1 (c : Dev nD) : V2 m c main_v0_1 = (dat0 (V0 m) c).arrAt 8 cfg0.N := W2_arr m c 8

/-- At the second region's exit: each of its arrays at its fold, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched: each is an input array of the first region, whose fold is the array as
    entered, and no array of the second region -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V0 m) c).arrAt_in 1 rfl _).trans (A_eq0 (V0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (V0 m) c).arrAt_in 2 rfl _).trans (A_eq0 (V0 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = W0 m c (Proc.devRef .tc main_arg3) := (W2_arr m c 3).trans (((dat0 (V0 m) c).arrAt_in 3 rfl _).trans (A_eq0 (V0 m) c 3))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W2 m c (Proc.devRef .tc main_arg4) := W4_of_ne m c main_arg4 (by decide)
    _ = W0 m c (Proc.devRef .tc main_arg4) := (W2_arr m c 4).trans (((dat0 (V0 m) c).arrAt_in 4 rfl _).trans (A_eq0 (V0 m) c 4))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W2 m c (Proc.devRef .tc main_arg5) := W4_of_ne m c main_arg5 (by decide)
    _ = W0 m c (Proc.devRef .tc main_arg5) := (W2_arr m c 5).trans (((dat0 (V0 m) c).arrAt_in 5 rfl _).trans (A_eq0 (V0 m) c 5))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W2 m c (Proc.devRef .tc main_arg6) := W4_of_ne m c main_arg6 (by decide)
    _ = W0 m c (Proc.devRef .tc main_arg6) := (W2_arr m c 6).trans (((dat0 (V0 m) c).arrAt_in 6 rfl _).trans (A_eq0 (V0 m) c 6))
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱run : Variants := Variants.none
/-- No core owes another anything: no level is assigned. -/
abbrev Lrun : GSem nD τ sig → Finset Unit := fun _ => ∅
abbrev lvrun : GSem nD τ sig → Unit → ℕ := fun _ _ => 0
/-- What rides beside the buffers through both regions: the core's generator register at some state and its dues,
    at nothing. -/
abbrev Rrun (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at the launch contents, left at the
    contents after it. Its arrays are split out of the unscoped buffers and put back at their folds; the generator
    register and the scoped buffers no window stages make the resting invariant, which is the invariant before the
    first point, and the invariant after the last point gives them back; nothing owed; no semaphore of its own. -/
def reg0 : Pipeline.RegionSeg (pcfgs (F := F)) adm (pdats m) () defs₀ 𝒱run Lrun lvrun 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ Lrun lvrun 0 fun _ _ => rfl
  pre c := iprop(StableHlo.held (c : Thread nD τ) (Pipeline.ucRefs τ sig) (W0 m c) ∗ Rrun c)
  post c := iprop(StableHlo.held (c : Thread nD τ) (Pipeline.ucRefs τ sig) (W2 m c) ∗ Rrun c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the contents the first leaves, left at the last
    boundary's. Its invariant is the resting one at every point. -/
def reg1 : Pipeline.RegionSeg (pcfgs (F := F)) adm (pdats m) () defs₀ 𝒱run Lrun lvrun 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ Lrun lvrun 1 fun _ _ => rfl
  pre c := iprop(StableHlo.held (c : Thread nD τ) (Pipeline.ucRefs τ sig) (W2 m c) ∗ Rrun c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱run Lrun lvrun) :=
  [ .region (reg0 m), .region (reg1 m) ]
/-- @main is the run of the segments. -/
theorem main_run (c : Dev nD) : main (F := F) c = Pipeline.Seg.run (segs m) :=
  main_segs adm (pdats m) () 𝒱run Lrun lvrun (reg0 m) (reg1 m) c

set_option backward.isDefEq.respectTransparency.types false in
/-- THE RUN, NAMING THE RESULT: from any memory with zero counters, every weakly fair execution of @main on the
    TensorCores terminates, nothing faulting, and every final memory holds in the result array the second region's
    output fold (at the entry contents the first region leaves) and in each argument array its launch contents. -/
theorem run_value : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱run Lrun lvrun m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rrun c)) (Tₙ := Tₙ m)
    (hch := ⟨fun _ => .rfl, fun _ => .rfl, fun _ => .rfl⟩)
    (hinit := by
      refine Pipeline.initEach Lrun lvrun fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_arr m c 2),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c)⟩)

/-- THE FRAME: the same run, keeping only that every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.KI.ValueA0.lean ====
/- The projection kernel's three cases read as values: what each case's found pieces are, as payloads of the loaded
   blocks, at any float interpretation; and from them, what the body leaves at a point in the query output's buffer,
   in the accumulator, and (at a last row tile) in the second output's buffer. -/
import proofs.«128367_j40510131536516_1_alg».proof.Proof.KI.RegionA.Dat
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

variable {F : FTy → Type} [FloatOps F]

theorem off_zero1 : (![0] : Fin 1 → Nat) = fun _ => 0 := funext fun a => by fin_cases a <;> rfl
theorem off_zero2 : (![0, 0] : Fin 2 → Nat) = fun _ => 0 := funext fun a => by fin_cases a <;> rfl
theorem off_zero3' : (![0, 0, 0] : Fin 3 → Nat) = fun _ => 0 := funext fun a => by fin_cases a <;> rfl

/-! ## What each case's pieces are, as payloads of the loaded blocks

In every case the query output's buffer gets one whole-buffer store of the query payload of the tile, the two weights
and the bias; the accumulator gets one whole-buffer store of the update payload over what it held (at a first row
tile: over the zero payload, stored just before and read back); at a last row tile the second output's buffer gets
one whole-buffer store of the copy payload of the updated accumulator, read back. -/

set_option maxHeartbeats 1000000 in
theorem q_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) :
    out0_A_7 c i arg2 harg2 arg3 harg3 arg4 harg4 arg5 harg5 arg6 harg6 arg7 harg7 arg8 harg8 arg9 harg9 arg10 harg10 arg11 harg11 hc0 hc1 x0 x1 x2 x3 x4 x5 x6 = k0_pay2 (k0_pay6 x0 x1 x2) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero off_zero3']
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

set_option maxHeartbeats 1000000 in
theorem q_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    out0_B_7 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (k0_pay6 x0 x1 x2) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero off_zero3']
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

set_option maxHeartbeats 1000000 in
theorem q_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (k0_pay6 x0 x1 x2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero off_zero3']
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

set_option maxHeartbeats 1000000 in
theorem sc_A (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : cond0_0 i) (hc1 : ¬cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) :
    sout0_A c i arg2 harg2 arg3 harg3 arg4 harg4 arg5 harg5 arg6 harg6 arg7 harg7 arg8 harg8 arg9 harg9 arg10 harg10 arg11 harg11 hc0 hc1 x0 x1 x2 x3 x4 x5 x6 = k0_pay1 (k0_pay7 x0 x3 x5 x4 x6 (k0_pay4 (F := F))) := by
  unfold sout0_A
  rw [View.read_writes_eq_canon _ _ _ (scover0_A c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S128x128) off_zero2]
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

set_option maxHeartbeats 1000000 in
theorem sc_B (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : ¬cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    sout0_B c i arg2 harg2 arg3 harg3 arg4 harg4 arg5 harg5 arg6 harg6 arg7 harg7 arg8 harg8 arg9 harg9 arg10 harg10 arg11 harg11 hc0 hc1 x0 x1 x2 x3 x4 x5 x6 xs0 = k0_pay1 (k0_pay7 x0 x3 x5 x4 x6 xs0) := by
  unfold sout0_B
  rw [View.read_writes_eq_canon _ _ _ (scover0_B c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero off_zero2]
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

set_option maxHeartbeats 1000000 in
theorem sc_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    sout0_C c i arg2 harg2 arg3 harg3 arg4 harg4 arg5 harg5 arg6 harg6 arg7 harg7 arg8 harg8 arg9 harg9 arg10 harg10 arg11 harg11 hc0 hc1 x0 x1 x2 x3 x4 x5 x6 xs0 = k0_pay1 (k0_pay7 x0 x3 x5 x4 x6 xs0) := by
  unfold sout0_C
  rw [View.read_writes_eq_canon _ _ _ (scover0_C c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero off_zero2]
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

set_option maxHeartbeats 1000000 in
theorem kv_C (c : Dev nD) (i : grid0.Coords) (arg2 : Memref sig .tc .vmem S1x1024x1024 .f32) (harg2 : arg2.IsWhole) (arg3 : Memref sig .tc .vmem S128x1024 .f32) (harg3 : arg3.IsWhole) (arg4 : Memref sig .tc .vmem S128 .f32) (harg4 : arg4.IsWhole) (arg5 : Memref sig .tc .vmem S128x1024 .f32) (harg5 : arg5.IsWhole) (arg6 : Memref sig .tc .vmem S128 .f32) (harg6 : arg6.IsWhole) (arg7 : Memref sig .tc .vmem S128x1024 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x128x128 .f32) (harg10 : arg10.IsWhole) (arg11 : Memref sig .tc .vmem S128x128 .f32) (harg11 : arg11.IsWhole) (hc0 : ¬cond0_0 i) (hc1 : cond0_1 i) (x0 : Vec F S1x1024x1024 .f32) (x1 : Vec F S128x1024 .f32) (x2 : Vec F S128 .f32) (x3 : Vec F S128x1024 .f32) (x4 : Vec F S128 .f32) (x5 : Vec F S128x1024 .f32) (x6 : Vec F S128 .f32) (xs0 : Vec F S128x128 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 xs0 = k0_pay3 (k0_pay1 (k0_pay7 x0 x3 x5 x4 x6 xs0)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero off_zero3']
  simp only [View.readAt_eq_ld, harg2.read_unread, harg3.read_unread, harg4.read_unread, harg5.read_unread, harg6.read_unread, harg7.read_unread, harg8.read_unread, harg11.read_unread, View.ld_unit_zero (S := S1x1024x1024) off_zero3', View.ld_unit_zero (S := S128x1024) off_zero2, View.ld_unit_zero (S := S128) off_zero1, View.ld_unit_zero (S := S128x128) off_zero2, View.readCov_unit_zero (S := S128x128) _ off_zero2]

/-! ## At a point -/

section AtPoint
variable (V : (c : Dev nD) → (b : Ref sig .tc) → Buf (Elt F) ((c : Thread nD τ).loc b))

/-- The input blocks at a point, at their literal vector types: the tile of `X`, and the three weights and biases. -/
abbrev xblk (c : Dev nD) (t : Fin cfg0.N) : Vec F S1x1024x1024 .f32 := iblk0 V c 0 t
abbrev wqblk (c : Dev nD) (t : Fin cfg0.N) : Vec F S128x1024 .f32 := iblk0 V c 1 t
abbrev bqblk (c : Dev nD) (t : Fin cfg0.N) : Vec F S128 .f32 := iblk0 V c 2 t
abbrev wkblk (c : Dev nD) (t : Fin cfg0.N) : Vec F S128x1024 .f32 := iblk0 V c 3 t
abbrev bkblk (c : Dev nD) (t : Fin cfg0.N) : Vec F S128 .f32 := iblk0 V c 4 t
abbrev wvblk (c : Dev nD) (t : Fin cfg0.N) : Vec F S128x1024 .f32 := iblk0 V c 5 t
abbrev bvblk (c : Dev nD) (t : Fin cfg0.N) : Vec F S128 .f32 := iblk0 V c 6 t

/-- At every point the body leaves the tile's queries in the query output's buffer. -/
theorem after7_eq (c : Dev nD) (t : Fin cfg0.N) :
    after7 V c t = k0_pay2 (k0_pay6 (xblk V c t) (wqblk V c t) (bqblk V c t)) := by
  unfold after7
  by_cases h0 : t.val % 4 = 0
  · rw [dif_pos h0]
    exact q_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) ((hcond0_0 t).mpr h0) (not_c1_of_mod0 t h0) (iblk0 V c 0 t) (iblk0 V c 1 t) (iblk0 V c 2 t) (iblk0 V c 3 t) (iblk0 V c 4 t) (iblk0 V c 5 t) (iblk0 V c 6 t)
  · rw [dif_neg h0]
    by_cases h1 : t.val % 4 = 3
    · rw [dif_pos h1]
      exact q_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (not_c0_of_mod t h0) ((hcond0_1 t).mpr h1) (iblk0 V c 0 t) (iblk0 V c 1 t) (iblk0 V c 2 t) (iblk0 V c 3 t) (iblk0 V c 4 t) (iblk0 V c 5 t) (iblk0 V c 6 t) (scPrev V c t)
    · rw [dif_neg h1]
      exact q_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (not_c0_of_mod t h0) (not_c1_of_mod t h1) (iblk0 V c 0 t) (iblk0 V c 1 t) (iblk0 V c 2 t) (iblk0 V c 3 t) (iblk0 V c 4 t) (iblk0 V c 5 t) (iblk0 V c 6 t) (scPrev V c t)

/-- At a first row tile the accumulator is left at the update over the zero payload. -/
theorem scAt0_first (c : Dev nD) (t : Fin cfg0.N) (h0 : t.val % 4 = 0) :
    scAt0 V c t.val t.isLt
      = k0_pay1 (k0_pay7 (xblk V c t) (wkblk V c t) (wvblk V c t) (bkblk V c t) (bvblk V c t) (k0_pay4 (F := F))) :=
  (scAt0_A V c t h0).trans (sc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) ((hcond0_0 t).mpr h0) (not_c1_of_mod0 t h0) (iblk0 V c 0 t) (iblk0 V c 1 t) (iblk0 V c 2 t) (iblk0 V c 3 t) (iblk0 V c 4 t) (iblk0 V c 5 t) (iblk0 V c 6 t))

/-- At any other row tile it is left at the update over what the point before left. -/
theorem scAt0_next (c : Dev nD) (t : Fin cfg0.N) (h0 : ¬t.val % 4 = 0) :
    scAt0 V c t.val t.isLt
      = k0_pay1 (k0_pay7 (xblk V c t) (wkblk V c t) (wvblk V c t) (bkblk V c t) (bvblk V c t) (scPrev V c t)) := by
  by_cases h1 : t.val % 4 = 3
  · exact (scAt0_C V c t h0 h1).trans (sc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (not_c0_of_mod t h0) ((hcond0_1 t).mpr h1) (iblk0 V c 0 t) (iblk0 V c 1 t) (iblk0 V c 2 t) (iblk0 V c 3 t) (iblk0 V c 4 t) (iblk0 V c 5 t) (iblk0 V c 6 t) (scPrev V c t))
  · exact (scAt0_B V c t h0 h1).trans (sc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (not_c0_of_mod t h0) (not_c1_of_mod t h1) (iblk0 V c 0 t) (iblk0 V c 1 t) (iblk0 V c 2 t) (iblk0 V c 3 t) (iblk0 V c 4 t) (iblk0 V c 5 t) (iblk0 V c 6 t) (scPrev V c t))

/-- At a last row tile the second output's buffer is left at the copy payload of the accumulator after the point. -/
theorem after8_eq (c : Dev nD) (t : Fin cfg0.N) (h1 : t.val % 4 = 3) :
    after8 V c t = k0_pay3 (scAt0 V c t.val t.isLt) := by
  have h0 : ¬t.val % 4 = 0 := by omega
  rw [scAt0_next V c t h0]
  unfold after8
  rw [dif_pos h1]
  exact kv_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) _ ((hcond0_1 t).mpr h1) (iblk0 V c 0 t) (iblk0 V c 1 t) (iblk0 V c 2 t) (iblk0 V c 3 t) (iblk0 V c 4 t) (iblk0 V c 5 t) (iblk0 V c 6 t) (scPrev V c t)

end AtPoint

end Cert.KernelIdeal.HandValue

end
-- ==== Proof.KI.PayA.lean ====
/- The first region's payloads read at an index, over the extended reals. A tile of the input (1024 rows of 1024
   features) is projected three times: each projection is the tile times a transposed weight matrix plus a bias row.
   The first projection is stored as the tile's queries; the other two are multiplied, the second transposed, into a
   128 by 128 matrix that is added to an accumulator. Narrowing is the identity on extended reals, so each payload at
   an index is a finite sum of products of the loaded values. First the two matrix products at an index, then the
   projection, then each stored payload. -/
import proofs.«128367_j40510131536516_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Idealize.ShloMosaic Idealize.ShloMosaic.ValueIdx

/-! ## The two matrix products at an index

Both contract axis 1 of the left operand with axis 0 of the right operand; the result's axis 0 is the left operand's
axis 0 and its axis 1 the right operand's axis 1. -/

theorem lhs_pj_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pj_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pj_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pj_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The projection's product into the zero accumulator, at row i and column j: the sum over the 1024 features. -/
theorem pj_mm_apply (a : FVec Ideal S1024x1024 .bf16) (b : FVec Ideal S1024x128 .bf16) (i : Fin 1024) (j : Fin 128) :
    matmul (F := Ideal) dot_S1024x1024_S1024x128_S1024x128_1_0_0_1_n_n none a b (constant (F := Ideal) S1024x128 .f32 0x00000000#32) (ix2 i j)
      = ∑ e : Fin 1024, a (ix2 i e) * b (ix2 e j) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun e _ => ?_
  have he := ValueIdx.contrEquiv1_symm_val dot_S1024x1024_S1024x128_S1024x128_1_0_0_1_n_n 1024 rfl rfl e
  have el : dot_S1024x1024_S1024x128_S1024x128_1_0_0_1_n_n.lhsIdx (ix2 i j) ((ValueIdx.contrEquiv1 dot_S1024x1024_S1024x128_S1024x128_1_0_0_1_n_n 1024 rfl rfl).symm e) = ix2 i e := funext fun c => Fin.ext (by
    match c with
    | ⟨0, _⟩ => exact lhs_pj_0 _ _
    | ⟨1, _⟩ => exact (lhs_pj_1 _ _).trans he)
  have er : dot_S1024x1024_S1024x128_S1024x128_1_0_0_1_n_n.rhsIdx (ix2 i j) ((ValueIdx.contrEquiv1 dot_S1024x1024_S1024x128_S1024x128_1_0_0_1_n_n 1024 rfl rfl).symm e) = ix2 e j := funext fun c => Fin.ext (by
    match c with
    | ⟨0, _⟩ => exact (rhs_pj_0 _ _).trans he
    | ⟨1, _⟩ => exact rhs_pj_1 _ _)
  rw [el, er]

theorem lhs_kv_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem lhs_kv_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
theorem rhs_kv_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
theorem rhs_kv_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- The keys-transposed times values product into the zero accumulator, at (i, j): the sum over the tile's 1024 rows. -/
theorem kv_mm_apply (a : FVec Ideal S128x1024 .bf16) (b : FVec Ideal S1024x128 .bf16) (i : Fin 128) (j : Fin 128) :
    matmul (F := Ideal) dot_S128x1024_S1024x128_S128x128_1_0_0_1_n_n none a b (constant (F := Ideal) S128x128 .f32 0x00000000#32) (ix2 i j)
      = ∑ e : Fin 1024, a (ix2 i e) * b (ix2 e j) := by
  simp only [matmul]
  rw [Ideal.matmul_constant_zero_apply, ← Equiv.sum_comp (ValueIdx.contrEquiv1 dot_S128x1024_S1024x128_S128x128_1_0_0_1_n_n 1024 rfl rfl).symm]
  refine Finset.sum_congr rfl fun e _ => ?_
  have he := ValueIdx.contrEquiv1_symm_val dot_S128x1024_S1024x128_S128x128_1_0_0_1_n_n 1024 rfl rfl e
  have el : dot_S128x1024_S1024x128_S128x128_1_0_0_1_n_n.lhsIdx (ix2 i j) ((ValueIdx.contrEquiv1 dot_S128x1024_S1024x128_S128x128_1_0_0_1_n_n 1024 rfl rfl).symm e) = ix2 i e := funext fun c => Fin.ext (by
    match c with
    | ⟨0, _⟩ => exact lhs_kv_0 _ _
    | ⟨1, _⟩ => exact (lhs_kv_1 _ _).trans he)
  have er : dot_S128x1024_S1024x128_S128x128_1_0_0_1_n_n.rhsIdx (ix2 i j) ((ValueIdx.contrEquiv1 dot_S128x1024_S1024x128_S128x128_1_0_0_1_n_n 1024 rfl rfl).symm e) = ix2 e j := funext fun c => Fin.ext (by
    match c with
    | ⟨0, _⟩ => exact (rhs_kv_0 _ _).trans he
    | ⟨1, _⟩ => exact rhs_kv_1 _ _)
  rw [el, er]

/-! ## The projection -/

/-- a tile's projection at (row r, head coordinate k): (∑ e, x (0, r, e) * w (k, e)) + b k -/
def tproj (x : Vec Ideal S1x1024x1024 .f32) (w : Vec Ideal S128x1024 .f32) (b : Vec Ideal S128 .f32) (r : Fin 1024) (k : Fin 128) : EReal :=
  (∑ e : Fin 1024, x (ix3 0 r e) * w (ix2 k e)) + b (ix1 k)

/-- The tile with its unit axis cast away and narrowed, at (r, e): the tile at (0, r, e). -/
theorem pay5_apply (x : Vec Ideal S1x1024x1024 .f32) (r e : Fin 1024) :
    k0_pay5 (F := Ideal) x (ix2 r e) = x (ix3 0 r e) := by
  unfold k0_pay5
  rw [truncf_apply]
  exact shapeCast_1ab_ab_apply x _ r e

/-- The projection payload at (r, k): the narrowed tile times the narrowed, transposed weights, plus the bias row. -/
theorem pay6_apply (x : Vec Ideal S1x1024x1024 .f32) (w : Vec Ideal S128x1024 .f32) (b : Vec Ideal S128 .f32) (r : Fin 1024) (k : Fin 128) :
    k0_pay6 (F := Ideal) x w b (ix2 r k) = tproj x w b r k := by
  unfold k0_pay6 tproj
  rw [addf_apply, pj_mm_apply, broadcastTo_1b_ab_apply, shapeCast_a_1a_apply]
  refine congrArg (· + b (ix1 k)) (Finset.sum_congr rfl fun e _ => ?_)
  rw [pay5_apply, transpose_ix2_apply, truncf_apply]

/-! ## The stored payloads -/

/-- the queries' payload at an index -/
theorem pay_q_apply (x0 : Vec Ideal S1x1024x1024 .f32) (x1 : Vec Ideal S128x1024 .f32) (x2 : Vec Ideal S128 .f32) (r : Fin 1024) (k : Fin 128) :
    k0_pay2 (F := Ideal) (k0_pay6 x0 x1 x2) (ix3 0 r k) = tproj x0 x1 x2 r k := by
  unfold k0_pay2
  rw [shapeCast_ab_1ab_apply, truncf_apply]
  exact pay6_apply x0 x1 x2 r k

/-- The accumulated payload is the accumulator plus the product of the second projection, narrowed and transposed,
    with the third, narrowed: the two projections inside it are the projection payload at the other weights. -/
theorem pay7_eq (x0 : Vec Ideal S1x1024x1024 .f32) (x3 : Vec Ideal S128x1024 .f32) (x5 : Vec Ideal S128x1024 .f32) (x4 : Vec Ideal S128 .f32) (x6 : Vec Ideal S128 .f32)
    (acc : Vec Ideal S128x128 .f32) :
    k0_pay7 (F := Ideal) x0 x3 x5 x4 x6 acc
      = addf acc (matmul (F := Ideal) dot_S128x1024_S1024x128_S128x128_1_0_0_1_n_n none
          (transpose S128x1024 [1, 0] (truncf .bf16 (k0_pay6 (F := Ideal) x0 x3 x4) bitsLt_bf16_f32) transposes_S1024x128_p1_0_S128x1024)
          (truncf .bf16 (k0_pay6 (F := Ideal) x0 x5 x6) bitsLt_bf16_f32)
          (constant (F := Ideal) S128x128 .f32 0x00000000#32)) := rfl

/-- the accumulator's payload at an index: what it held plus the tile's Kᵀ V -/
theorem pay_acc_apply (x0 : Vec Ideal S1x1024x1024 .f32) (x3 : Vec Ideal S128x1024 .f32) (x5 : Vec Ideal S128x1024 .f32) (x4 : Vec Ideal S128 .f32) (x6 : Vec Ideal S128 .f32)
    (acc : Vec Ideal S128x128 .f32) (k v : Fin 128) :
    k0_pay1 (F := Ideal) (k0_pay7 x0 x3 x5 x4 x6 acc) (ix2 k v) = acc (ix2 k v) + ∑ r : Fin 1024, tproj x0 x3 x4 r k * tproj x0 x5 x6 r v := by
  unfold k0_pay1
  rw [shapeCast_self]
  rw [pay7_eq, addf_apply, kv_mm_apply]
  refine congrArg (acc (ix2 k v) + ·) (Finset.sum_congr rfl fun r _ => ?_)
  rw [transpose_ix2_apply, truncf_apply, truncf_apply, pay6_apply, pay6_apply]

/-- the reset's payload is zero everywhere -/
theorem pay_zero_apply (k v : Fin 128) : k0_pay4 (F := Ideal) (ix2 k v) = 0 := by
  unfold k0_pay4
  rw [shapeCast_self]
  exact Ideal.ofBits_zero_f32

/-- the copy-out's payload is the accumulator re-laid as [1, 128, 128] -/
theorem pay_kv_apply (a : Vec Ideal S128x128 .f32) (k v : Fin 128) : k0_pay3 (F := Ideal) a (ix3 0 k v) = a (ix2 k v) := by
  unfold k0_pay3
  exact shapeCast_ab_1ab_apply a _ 0 k v

end Cert.KernelIdeal.HandValue

end
-- ==== Proof.Spec.lean ====
import Mathlib.Data.EReal.Operations
import Mathlib.Algebra.BigOperators.Group.Finset.Basic
import Mathlib.Algebra.BigOperators.Ring.Finset
import Mathlib.Algebra.Order.BigOperators.Group.Finset
import Mathlib.Algebra.BigOperators.Fin
import Mathlib.Data.Fintype.BigOperators
import Mathlib.Data.Fintype.EquivFin
import Mathlib.Tactic.Ring
import Mathlib.Tactic.NormNum

/-!
# Unnormalised attention, two ways, over the extended reals

For a batch `n`, query row `i`, key/value row `j`, head coordinates `k`, `v` and an embedding coordinate `e`:

* a projection is `proj X W b n r k = (∑ e, X n r e * W k e) + b k`;
* the reference forms the score `∑ k, Q n i k * K n j k` and then `∑ j, score * V n j v`  (`refOut`);
* the kernel forms `Kᵀ V` first, tile by tile over the rows `j` (four tiles of 1024 rows, summed in tile order
  from zero: `kvAcc`), and then `∑ k, Q n i k * (Kᵀ V) n k v`  (`kerOut`).

Over the reals these agree by distributivity and by exchanging the two finite sums; on the extended reals
distributivity needs every entry to be a real number, which is what the finiteness hypotheses provide.
-/

noncomputable section

namespace Cert.Spec

open Finset

/-- A linear projection with bias: `(∑ e, X n r e * W k e) + b k`. -/
def proj (X : Fin 4 → Fin 4096 → Fin 1024 → EReal) (W : Fin 128 → Fin 1024 → EReal) (b : Fin 128 → EReal)
    (n : Fin 4) (r : Fin 4096) (k : Fin 128) : EReal :=
  (∑ e : Fin 1024, X n r e * W k e) + b k

/-- The reference: scores first, `∑ j, (∑ k, Q n i k * K n j k) * V n j v`. -/
def refOut (Q K V : Fin 4 → Fin 4096 → Fin 128 → EReal) (n : Fin 4) (i : Fin 4096) (v : Fin 128) : EReal :=
  ∑ j : Fin 4096, (∑ k : Fin 128, Q n i k * K n j k) * V n j v

/-- Row `r` of tile `mm` (tiles of 1024 rows); total in `mm`, the true row `1024 * mm + r` for `mm < 4`. -/
def row (mm : ℕ) (r : Fin 1024) : Fin 4096 := ⟨(1024 * mm + r.val) % 4096, Nat.mod_lt _ (by norm_num)⟩

theorem row_val (mm : ℕ) (hmm : mm < 4) (r : Fin 1024) : (row mm r).val = 1024 * mm + r.val := by
  have := r.isLt
  show (1024 * mm + r.val) % 4096 = _
  exact Nat.mod_eq_of_lt (by omega)

/-- One tile's contribution to `Kᵀ V`: `∑ r, K n (row mm r) k * V n (row mm r) v`. -/
def kvTile (K V : Fin 4 → Fin 4096 → Fin 128 → EReal) (n : Fin 4) (mm : ℕ) (k v : Fin 128) : EReal :=
  ∑ r : Fin 1024, K n (row mm r) k * V n (row mm r) v

/-- `Kᵀ V` accumulated tile by tile, in tile order from zero: after tile `mm`. -/
def kvPre (K V : Fin 4 → Fin 4096 → Fin 128 → EReal) (n : Fin 4) (k v : Fin 128) : ℕ → EReal
  | 0 => 0 + kvTile K V n 0 k v
  | mm + 1 => kvPre K V n k v mm + kvTile K V n (mm + 1) k v

/-- `Kᵀ V` after the fourth tile. -/
def kvAcc (K V : Fin 4 → Fin 4096 → Fin 128 → EReal) (n : Fin 4) (k v : Fin 128) : EReal := kvPre K V n k v 3

/-- The kernel: `∑ k, Q n i k * (Kᵀ V) n k v`. -/
def kerOut (Q K V : Fin 4 → Fin 4096 → Fin 128 → EReal) (n : Fin 4) (i : Fin 4096) (v : Fin 128) : EReal :=
  ∑ k : Fin 128, Q n i k * kvAcc K V n k v

/-- Every entry is a real number. -/
def Real3 {A B C : Type} (T : A → B → C → EReal) : Prop := ∀ a b c, ∃ x : ℝ, T a b c = (x : EReal)
def Real2 {A B : Type} (T : A → B → EReal) : Prop := ∀ a b, ∃ x : ℝ, T a b = (x : EReal)
def Real1 {A : Type} (T : A → EReal) : Prop := ∀ a, ∃ x : ℝ, T a = (x : EReal)

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The four tiles of 1024 rows partition the 4096 rows: `(mm, r) ↦ 1024 * mm + r` is a bijection
    `Fin 4 × Fin 1024 → Fin 4096`, so a sum over all rows is the sum of the four tile sums, in tile order. -/
theorem sum_rows (f : Fin 4096 → ℝ) :
    ∑ j : Fin 4096, f j
      = (((∑ r : Fin 1024, f (row 0 r)) + ∑ r : Fin 1024, f (row 1 r)) + ∑ r : Fin 1024, f (row 2 r))
          + ∑ r : Fin 1024, f (row 3 r) := by
  have hb : Function.Bijective (fun p : Fin 4 × Fin 1024 => row p.1.val p.2) := by
    rw [Fintype.bijective_iff_injective_and_card]
    refine ⟨?_, by simp⟩
    rintro ⟨a, r⟩ ⟨a', r'⟩ h
    have h1 := congrArg Fin.val h
    simp only [row_val _ a.isLt, row_val _ a'.isLt] at h1
    have := r.isLt
    have := r'.isLt
    have ha : a.val = a'.val := by omega
    have hr : r.val = r'.val := by omega
    rw [Prod.mk.injEq]
    exact ⟨Fin.ext ha, Fin.ext hr⟩
  rw [← hb.sum_comp f, Fintype.sum_prod_type, Fin.sum_univ_four]
  rfl

/-- A tile's contribution, on real entries, is the coercion of the real tile sum. -/
theorem kvTile_coe (K V : Fin 4 → Fin 4096 → Fin 128 → EReal) (kk vv : Fin 4 → Fin 4096 → Fin 128 → ℝ)
    (hkk : ∀ a b c, K a b c = (kk a b c : EReal)) (hvv : ∀ a b c, V a b c = (vv a b c : EReal))
    (n : Fin 4) (mm : ℕ) (k v : Fin 128) :
    kvTile K V n mm k v = ((∑ r : Fin 1024, kk n (row mm r) k * vv n (row mm r) v : ℝ) : EReal) := by
  unfold kvTile
  rw [coe_sum]
  refine Finset.sum_congr rfl fun r _ => ?_
  rw [hkk, hvv, EReal.coe_mul]

/-- On real entries the tile-by-tile accumulation is the coercion of the full real sum over all 4096 rows. -/
theorem kvAcc_coe (K V : Fin 4 → Fin 4096 → Fin 128 → EReal) (kk vv : Fin 4 → Fin 4096 → Fin 128 → ℝ)
    (hkk : ∀ a b c, K a b c = (kk a b c : EReal)) (hvv : ∀ a b c, V a b c = (vv a b c : EReal))
    (n : Fin 4) (k v : Fin 128) :
    kvAcc K V n k v = ((∑ j : Fin 4096, kk n j k * vv n j v : ℝ) : EReal) := by
  have h : kvAcc K V n k v
      = (((0 + kvTile K V n 0 k v) + kvTile K V n 1 k v) + kvTile K V n 2 k v) + kvTile K V n 3 k v := rfl
  rw [h, zero_add]
  simp only [kvTile_coe K V kk vv hkk hvv]
  rw [← EReal.coe_add, ← EReal.coe_add, ← EReal.coe_add, sum_rows (fun j => kk n j k * vv n j v)]

/-- A projection of real inputs is real. -/
theorem proj_real (X : Fin 4 → Fin 4096 → Fin 1024 → EReal) (W : Fin 128 → Fin 1024 → EReal) (b : Fin 128 → EReal)
    (hX : Real3 X) (hW : Real2 W) (hb : Real1 b) : Real3 (proj X W b) := by
  have hX' : ∀ a b c, ∃ x : ℝ, X a b c = (x : EReal) := hX
  have hW' : ∀ a b, ∃ x : ℝ, W a b = (x : EReal) := hW
  have hb' : ∀ a, ∃ x : ℝ, b a = (x : EReal) := hb
  choose x hx using hX'
  choose w hw using hW'
  choose bb hbb using hb'
  intro n r k
  refine ⟨(∑ e : Fin 1024, x n r e * w k e) + bb k, ?_⟩
  unfold proj
  rw [EReal.coe_add, coe_sum, hbb k]
  congr 1
  refine Finset.sum_congr rfl fun e _ => ?_
  rw [hx, hw, EReal.coe_mul]

/-- THE LAW: on real entries, summing `Kᵀ V` tile by tile first and contracting with `Q` afterwards is the reference's
    scores-first double sum. -/
theorem kerOut_eq_refOut (Q K V : Fin 4 → Fin 4096 → Fin 128 → EReal) (hQ : Real3 Q) (hK : Real3 K) (hV : Real3 V) :
    kerOut Q K V = refOut Q K V := by
  have hQ' : ∀ a b c, ∃ x : ℝ, Q a b c = (x : EReal) := hQ
  have hK' : ∀ a b c, ∃ x : ℝ, K a b c = (x : EReal) := hK
  have hV' : ∀ a b c, ∃ x : ℝ, V a b c = (x : EReal) := hV
  choose q hq using hQ'
  choose kk hkk using hK'
  choose vv hvv using hV'
  funext n i v
  -- the kernel's side, as the coercion of a real double sum
  have hker : kerOut Q K V n i v
      = ((∑ k : Fin 128, q n i k * (∑ j : Fin 4096, kk n j k * vv n j v) : ℝ) : EReal) := by
    unfold kerOut
    rw [coe_sum]
    refine Finset.sum_congr rfl fun k _ => ?_
    rw [hq, kvAcc_coe K V kk vv hkk hvv, EReal.coe_mul]
  -- the reference's side, likewise
  have href : refOut Q K V n i v
      = ((∑ j : Fin 4096, (∑ k : Fin 128, q n i k * kk n j k) * vv n j v : ℝ) : EReal) := by
    unfold refOut
    rw [coe_sum]
    refine Finset.sum_congr rfl fun j _ => ?_
    rw [EReal.coe_mul, coe_sum, hvv]
    congr 1
    refine Finset.sum_congr rfl fun k _ => ?_
    rw [hq, hkk, EReal.coe_mul]
  rw [hker, href]
  congr 1
  -- over the reals: distribute, exchange the two finite sums, reassociate the products
  simp only [Finset.mul_sum, Finset.sum_mul]
  rw [Finset.sum_comm]
  refine Finset.sum_congr rfl fun j _ => Finset.sum_congr rfl fun k _ => ?_
  ring

end Cert.Spec

end
-- ==== Proof.Cur.lean ====
import Idealize.ShloMosaic.Lib.ValueIdx
import Idealize.ShloMosaic.PureOps.Ideal

/-!
# Array contents as functions of coordinates

An array of shape `[n0, n1, n2]` read at the extended reals is a function of an index (one coordinate per axis);
`cur3` reads it at three coordinates and `unc3` goes back, so that a statement about an array can be made about a
function `Fin n0 → Fin n1 → Fin n2 → EReal` and conversely (likewise for ranks 2 and 1).
-/

noncomputable section

namespace Cert.Cur

open Idealize.ShloMosaic Idealize.ShloMosaic.ValueIdx

/-- An array of rank 3 at three coordinates. -/
def cur3 {n0 n1 n2 : Nat} (x : (⟨3, ![n0, n1, n2]⟩ : Shape).Idx → EReal) : Fin n0 → Fin n1 → Fin n2 → EReal :=
  fun a b c => x (ix3 a b c)
/-- An array of rank 2 at two coordinates. -/
def cur2 {n0 n1 : Nat} (x : (⟨2, ![n0, n1]⟩ : Shape).Idx → EReal) : Fin n0 → Fin n1 → EReal :=
  fun a b => x (ix2 a b)
/-- An array of rank 1 at its coordinate. -/
def cur1 {n0 : Nat} (x : (⟨1, ![n0]⟩ : Shape).Idx → EReal) : Fin n0 → EReal :=
  fun a => x (ix1 a)

/-- A function of three coordinates as an array of rank 3. -/
def unc3 {n0 n1 n2 : Nat} (f : Fin n0 → Fin n1 → Fin n2 → EReal) : (⟨3, ![n0, n1, n2]⟩ : Shape).Idx → EReal :=
  fun j => f (j 0) (j 1) (j 2)

theorem unc3_ix3 {n0 n1 n2 : Nat} (f : Fin n0 → Fin n1 → Fin n2 → EReal) (a : Fin n0) (b : Fin n1) (c : Fin n2) :
    unc3 f (ix3 a b c) = f a b c := rfl

theorem cur3_unc3 {n0 n1 n2 : Nat} (f : Fin n0 → Fin n1 → Fin n2 → EReal) : cur3 (unc3 f) = f := rfl

theorem unc3_cur3 {n0 n1 n2 : Nat} (x : (⟨3, ![n0, n1, n2]⟩ : Shape).Idx → EReal) : unc3 (cur3 x) = x := by
  funext j
  exact congrArg x (eq_ix3 j).symm

end Cert.Cur

end
-- ==== Proof.KI.ValueA.lean ====
import proofs.«128367_j40510131536516_1_alg».proof.Proof.KI.RegionA.Dat
import proofs.«128367_j40510131536516_1_alg».proof.Proof.KI.ValueA0
import proofs.«128367_j40510131536516_1_alg».proof.Proof.KI.PayA
import proofs.«128367_j40510131536516_1_alg».proof.Proof.Spec
import proofs.«128367_j40510131536516_1_alg».proof.Proof.Cur
import Idealize.ShloMosaic.Lib.Pipeline.Value
import Idealize.ShloMosaic.Lib.ValueIdx
import Idealize.ShloMosaic.Lib.ValueLayout
import Idealize.ShloMosaic.PureOps.Ideal.Laws

/-!
# The projection kernel's two result arrays, over the extended reals

After the first pallas_call the query array holds `Q = X · Wqᵀ + bq` entry by entry, and the second result holds,
for each batch, `Kᵀ V` summed tile by tile over the four row tiles in order from zero, with `K = X · Wkᵀ + bk` and
`V = X · Wvᵀ + bv`.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Cur Cert.Spec

/-! ## Entry by entry, on vectors of literal shapes -/

/-- A tile's projection is the array's projection at the tile's batch and rows, when the tile is batch `n`, rows
    `1024 mm …` of `X` and the weight and bias blocks are their arrays. -/
theorem tproj_eq_proj (X : S4x4096x1024.Idx → EReal) (W : S128x1024.Idx → EReal) (B : S128.Idx → EReal)
    (x : Vec Ideal S1x1024x1024 .f32) (w : Vec Ideal S128x1024 .f32) (b : Vec Ideal S128 .f32) (n : Fin 4) (mm : ℕ)
    (hx : ∀ (r e : Fin 1024), x (ix3 (0 : Fin 1) r e) = X (ix3 n (row mm r) e))
    (hw : ∀ (k : Fin 128) (e : Fin 1024), w (ix2 k e) = W (ix2 k e))
    (hb : ∀ k : Fin 128, b (ix1 k) = B (ix1 k)) (r : Fin 1024) (k : Fin 128) :
    tproj x w b r k = proj (cur3 X) (cur2 W) (cur1 B) n (row mm r) k := by
  unfold tproj
  show _ = (∑ e : Fin 1024, X (ix3 n (row mm r) e) * W (ix2 k e)) + B (ix1 k)
  rw [hb]
  exact congrArg (· + B (ix1 k)) (Finset.sum_congr rfl fun e _ => by rw [hx, hw])

/-- The query payload at a block index is the projected array at the array index with the block's batch and rows. -/
theorem q_point (X : S4x4096x1024.Idx → EReal) (W : S128x1024.Idx → EReal) (B : S128.Idx → EReal)
    (x : Vec Ideal S1x1024x1024 .f32) (w : Vec Ideal S128x1024 .f32) (b : Vec Ideal S128 .f32) (n : Fin 4) (mm : ℕ) (hmm : mm < 4)
    (hx : ∀ (r e : Fin 1024), x (ix3 (0 : Fin 1) r e) = X (ix3 n (row mm r) e))
    (hw : ∀ (k : Fin 128) (e : Fin 1024), w (ix2 k e) = W (ix2 k e))
    (hb : ∀ k : Fin 128, b (ix1 k) = B (ix1 k))
    (j : S1x1024x128.Idx) (i : S4x4096x128.Idx) (hi0 : (i 0).val = n.val) (hi1 : (i 1).val = 1024 * mm + (j 1).val) (hi2 : (i 2).val = (j 2).val) :
    k0_pay2 (F := Ideal) (k0_pay6 x w b) j = unc3 (proj (cur3 X) (cur2 W) (cur1 B)) i := by
  obtain ⟨u, r, k, rfl⟩ : ∃ (u : Fin 1) (r : Fin 1024) (k : Fin 128), j = ix3 u r k := ⟨j 0, j 1, j 2, eq_ix3 j⟩
  obtain rfl : u = 0 := Subsingleton.elim _ _
  have e0 : i 0 = n := Fin.ext hi0
  have e1 : i 1 = row mm r := Fin.ext (by rw [row_val mm hmm r]; exact hi1)
  have e2 : i 2 = k := Fin.ext hi2
  rw [pay_q_apply, tproj_eq_proj X W B x w b n mm hx hw hb]
  show _ = proj (cur3 X) (cur2 W) (cur1 B) (i 0) (i 1) (i 2)
  rw [e0, e1, e2]

/-- The copy payload of an accumulator that is batch `n` of a function of three coordinates, at a block index, is
    that function at the array index with leading coordinate `n`. -/
theorem kv_point (acc : Vec Ideal S128x128 .f32) (G : Fin 4 → Fin 128 → Fin 128 → EReal) (n : Fin 4)
    (hacc : ∀ k v : Fin 128, acc (ix2 k v) = G n k v)
    (j : S1x128x128.Idx) (i : S4x128x128.Idx) (hi0 : (i 0).val = n.val) (hi1 : (i 1).val = (j 1).val) (hi2 : (i 2).val = (j 2).val) :
    k0_pay3 (F := Ideal) acc j = unc3 G i := by
  obtain ⟨u, k, v, rfl⟩ : ∃ (u : Fin 1) (k : Fin 128) (v : Fin 128), j = ix3 u k v := ⟨j 0, j 1, j 2, eq_ix3 j⟩
  obtain rfl : u = 0 := Subsingleton.elim _ _
  have e0 : i 0 = n := Fin.ext hi0
  have e1 : i 1 = k := Fin.ext hi1
  have e2 : i 2 = v := Fin.ext hi2
  rw [pay_kv_apply, hacc]
  show _ = G (i 0) (i 1) (i 2)
  rw [e0, e1, e2]

/-- One update of the accumulator, entry by entry: what it held plus the tile's contribution to `Kᵀ V`. -/
theorem acc_point (X : S4x4096x1024.Idx → EReal) (Wk : S128x1024.Idx → EReal) (Bk : S128.Idx → EReal) (Wv : S128x1024.Idx → EReal) (Bv : S128.Idx → EReal)
    (x : Vec Ideal S1x1024x1024 .f32) (wk : Vec Ideal S128x1024 .f32) (wv : Vec Ideal S128x1024 .f32) (bk : Vec Ideal S128 .f32) (bv : Vec Ideal S128 .f32)
    (acc : Vec Ideal S128x128 .f32) (n : Fin 4) (mm : ℕ)
    (hx : ∀ (r e : Fin 1024), x (ix3 (0 : Fin 1) r e) = X (ix3 n (row mm r) e))
    (hwk : ∀ (k : Fin 128) (e : Fin 1024), wk (ix2 k e) = Wk (ix2 k e)) (hbk : ∀ k : Fin 128, bk (ix1 k) = Bk (ix1 k))
    (hwv : ∀ (k : Fin 128) (e : Fin 1024), wv (ix2 k e) = Wv (ix2 k e)) (hbv : ∀ k : Fin 128, bv (ix1 k) = Bv (ix1 k))
    (k v : Fin 128) :
    k0_pay1 (F := Ideal) (k0_pay7 x wk wv bk bv acc) (ix2 k v)
      = acc (ix2 k v) + kvTile (proj (cur3 X) (cur2 Wk) (cur1 Bk)) (proj (cur3 X) (cur2 Wv) (cur1 Bv)) n mm k v := by
  rw [pay_acc_apply]
  unfold kvTile
  exact congrArg (acc (ix2 k v) + ·) (Finset.sum_congr rfl fun r _ => by
    rw [tproj_eq_proj X Wk Bk x wk bk n mm hx hwk hbk, tproj_eq_proj X Wv Bv x wv bv n mm hx hwv hbv])

/-! ## The grid's index maps -/

/-- The printed index maps, decided over the grid: point `t` is batch `t / 4`, row tile `t % 4`; the tile of `X` and the
    query block are at block index (batch, row tile, 0), the second output's block at (batch, 0, 0), and the weight and
    bias blocks never move. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val / 4 ∧ win0_7.index t (1 : Fin 3) = t.val % 4 ∧ win0_7.index t (2 : Fin 3) = 0
    ∧ win0_8.index t (0 : Fin 3) = t.val / 4 ∧ win0_8.index t (1 : Fin 3) = 0 ∧ win0_8.index t (2 : Fin 3) = 0
    ∧ t.val < 16 :=
  (by decide +kernel : ∀ t : Fin grid0.N, _)

/-- Every (batch, row tile) is some point's, -/
theorem idx_onto0_7 : ∀ (q0 q1 : Fin 4), ∃ t : Fin cfg0.N, win0_7.index t = ![q0.val, q1.val, 0] :=
  (by decide +kernel : ∀ (q0 q1 : Fin 4), ∃ t : Fin grid0.N, win0_7.index t = ![q0.val, q1.val, 0])

/-- and every batch is some last-row-tile point's. -/
theorem idx_onto0_8 : ∀ q0 : Fin 4, ∃ t : Fin cfg0.N, win0_8.index t = ![q0.val, 0, 0] ∧ t.val % 4 = 3 :=
  (by decide +kernel : ∀ q0 : Fin 4, ∃ t : Fin grid0.N, win0_8.index t = ![q0.val, 0, 0] ∧ t.val % 4 = 3)

variable (V : (c : Dev nD) → (b : Ref sig .tc) → Buf (Elt Ideal) ((c : Thread nD τ).loc b))

/-! ## The input blocks at a point, read off the argument arrays -/

theorem xblk_apply (c : Dev nD) (t : Fin cfg0.N) (n : Fin 4) (hn : n.val = t.val / 4) (r e : Fin 1024) :
    xblk V c t (ix3 (0 : Fin 1) r e) = V c main_arg0 (ix3 n (row (t.val % 4) r) e) := by
  obtain ⟨f0, f1, f2, -⟩ := idx_facts0 t
  have hr := row_val (t.val % 4) (Nat.mod_lt _ (by decide)) r
  show V c main_arg0 (((cfg0.win 0).blk t).view.emb (ix3 (0 : Fin 1) r e)) = _
  refine congrArg (V c main_arg0) (funext fun a => Fin.ext ?_)
  match a with
  | ⟨0, _⟩ => show win0_0.index t (0 : Fin 3) * 1 + 1 * 0 = n.val; omega
  | ⟨1, _⟩ => show win0_0.index t (1 : Fin 3) * 1024 + 1 * r.val = (row (t.val % 4) r).val; omega
  | ⟨2, _⟩ => show win0_0.index t (2 : Fin 3) * 1024 + 1 * e.val = e.val; omega

theorem wqblk_apply (c : Dev nD) (t : Fin cfg0.N) (k : Fin 128) (e : Fin 1024) :
    wqblk V c t (ix2 k e) = V c main_arg1 (ix2 k e) := by
  obtain ⟨-, -, -, f0, f1, -⟩ := idx_facts0 t
  show V c main_arg1 (((cfg0.win 1).blk t).view.emb (ix2 k e)) = _
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 1024 + 1 * e.val = e.val; omega

theorem bqblk_apply (c : Dev nD) (t : Fin cfg0.N) (k : Fin 128) :
    bqblk V c t (ix1 k) = V c main_arg2 (ix1 k) := by
  obtain ⟨-, -, -, -, -, f0, -⟩ := idx_facts0 t
  show V c main_arg2 (((cfg0.win 2).blk t).view.emb (ix1 k)) = _
  refine congrArg (V c main_arg2) (funext fun a => Fin.ext ?_)
  match a with
  | ⟨0, _⟩ => show win0_2.index t (0 : Fin 1) * 128 + 1 * k.val = k.val; omega

theorem wkblk_apply (c : Dev nD) (t : Fin cfg0.N) (k : Fin 128) (e : Fin 1024) :
    wkblk V c t (ix2 k e) = V c main_arg3 (ix2 k e) := by
  obtain ⟨-, -, -, -, -, -, f0, f1, -⟩ := idx_facts0 t
  show V c main_arg3 (((cfg0.win 3).blk t).view.emb (ix2 k e)) = _
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 1024 + 1 * e.val = e.val; omega

theorem bkblk_apply (c : Dev nD) (t : Fin cfg0.N) (k : Fin 128) :
    bkblk V c t (ix1 k) = V c main_arg4 (ix1 k) := by
  obtain ⟨-, -, -, -, -, -, -, -, f0, -⟩ := idx_facts0 t
  show V c main_arg4 (((cfg0.win 4).blk t).view.emb (ix1 k)) = _
  refine congrArg (V c main_arg4) (funext fun a => Fin.ext ?_)
  match a with
  | ⟨0, _⟩ => show win0_4.index t (0 : Fin 1) * 128 + 1 * k.val = k.val; omega

theorem wvblk_apply (c : Dev nD) (t : Fin cfg0.N) (k : Fin 128) (e : Fin 1024) :
    wvblk V c t (ix2 k e) = V c main_arg5 (ix2 k e) := by
  obtain ⟨-, -, -, -, -, -, -, -, -, f0, f1, -⟩ := idx_facts0 t
  show V c main_arg5 (((cfg0.win 5).blk t).view.emb (ix2 k e)) = _
  refine congrArg (V c main_arg5) (funext fun a => Fin.ext ?_)
  match a with
  | ⟨0, _⟩ => show win0_5.index t (0 : Fin 2) * 128 + 1 * k.val = k.val; omega
  | ⟨1, _⟩ => show win0_5.index t (1 : Fin 2) * 1024 + 1 * e.val = e.val; omega

theorem bvblk_apply (c : Dev nD) (t : Fin cfg0.N) (k : Fin 128) :
    bvblk V c t (ix1 k) = V c main_arg6 (ix1 k) := by
  obtain ⟨-, -, -, -, -, -, -, -, -, -, -, f0, -⟩ := idx_facts0 t
  show V c main_arg6 (((cfg0.win 6).blk t).view.emb (ix1 k)) = _
  refine congrArg (V c main_arg6) (funext fun a => Fin.ext ?_)
  match a with
  | ⟨0, _⟩ => show win0_6.index t (0 : Fin 1) * 128 + 1 * k.val = k.val; omega

/-! ## The accumulator after every point -/

/-- The two projections the accumulator multiplies. -/
abbrev Kp (c : Dev nD) : Fin 4 → Fin 4096 → Fin 128 → EReal :=
  proj (cur3 (V c main_arg0)) (cur2 (V c main_arg3)) (cur1 (V c main_arg4))
abbrev Vp (c : Dev nD) : Fin 4 → Fin 4096 → Fin 128 → EReal :=
  proj (cur3 (V c main_arg0)) (cur2 (V c main_arg5)) (cur1 (V c main_arg6))

/-- One update at point `t` of batch `n`: what the accumulator held plus row tile `t % 4`'s contribution. -/
theorem update_at (c : Dev nD) (t : Fin cfg0.N) (n : Fin 4) (hn : n.val = t.val / 4) (acc : Vec Ideal S128x128 .f32) (k v : Fin 128) :
    k0_pay1 (F := Ideal) (k0_pay7 (xblk V c t) (wkblk V c t) (wvblk V c t) (bkblk V c t) (bvblk V c t) acc) (ix2 k v)
      = acc (ix2 k v) + kvTile (Kp V c) (Vp V c) n (t.val % 4) k v :=
  acc_point (V c main_arg0) (V c main_arg3) (V c main_arg4) (V c main_arg5) (V c main_arg6)
    (xblk V c t) (wkblk V c t) (wvblk V c t) (bkblk V c t) (bvblk V c t) acc n (t.val % 4)
    (xblk_apply V c t n hn) (wkblk_apply V c t) (bkblk_apply V c t) (wvblk_apply V c t) (bvblk_apply V c t) k v

/-- THE ACCUMULATION, entry by entry: after position `p` (batch `p / 4`, row tile `p % 4`) the accumulator holds the
    batch's `Kᵀ V` summed over the row tiles up to this one, in order from zero. By induction on the position. -/
theorem scAt0_eq (c : Dev nD) : ∀ (p : ℕ) (hp : p < cfg0.N) (n : Fin 4) (hn : n.val = p / 4) (k v : Fin 128),
    scAt0 V c p hp (ix2 k v) = kvPre (Kp V c) (Vp V c) n k v (p % 4)
  | 0, hp, n, hn, k, v => by
    refine (congrFun (scAt0_first V c ⟨0, hp⟩ (Nat.zero_mod 4)) (ix2 k v)).trans ?_
    refine (update_at V c ⟨0, hp⟩ n hn _ k v).trans ?_
    rw [pay_zero_apply]
    rfl
  | p + 1, hp, n, hn, k, v => by
    by_cases h0 : (p + 1) % 4 = 0
    · refine (congrFun (scAt0_first V c ⟨p + 1, hp⟩ h0) (ix2 k v)).trans ?_
      refine (update_at V c ⟨p + 1, hp⟩ n hn _ k v).trans ?_
      rw [pay_zero_apply]
      show 0 + kvTile (Kp V c) (Vp V c) n ((p + 1) % 4) k v = kvPre (Kp V c) (Vp V c) n k v ((p + 1) % 4)
      rw [h0]
      rfl
    · refine (congrFun (scAt0_next V c ⟨p + 1, hp⟩ h0) (ix2 k v)).trans ?_
      refine (update_at V c ⟨p + 1, hp⟩ n hn _ k v).trans ?_
      have hm : (p + 1) % 4 = p % 4 + 1 := by omega
      have hn' : n.val = p / 4 := by have : (p + 1) / 4 = p / 4 := by omega
                                     omega
      show scAt0 V c p _ (ix2 k v) + kvTile (Kp V c) (Vp V c) n ((p + 1) % 4) k v = kvPre (Kp V c) (Vp V c) n k v ((p + 1) % 4)
      rw [scAt0_eq c p (Nat.lt_of_succ_lt hp) n hn' k v, hm]
      rfl

/-! ## The query array -/

/-- What point `t` writes back to the query array is block `t` of the projected array. -/
theorem flushed0_7_eq (c : Dev nD) (t : Fin cfg0.N) :
    (dat0 (F := Ideal) V c).flushed 7 t
      = ((cfg0.win 7).blk t).view.read (Elt Ideal) (unc3 (proj (cur3 (V c main_arg0)) (cur2 (V c main_arg1)) (cur1 (V c main_arg2)))) := by
  show (cfg0.win 7).cut (grid0.coords t) ((dat0 V c).after 7 t) = _
  rw [after0_7, after7_eq]
  obtain ⟨-, -, -, -, -, -, -, -, -, -, -, -, f0, f1, f2, -, -, -, f3⟩ := idx_facts0 t
  funext j
  show k0_pay2 (F := Ideal) (k0_pay6 (xblk V c t) (wqblk V c t) (bqblk V c t)) j
    = unc3 (proj (cur3 (V c main_arg0)) (cur2 (V c main_arg1)) (cur1 (V c main_arg2))) (((cfg0.win 7).blk t).view.emb j)
  refine q_point (V c main_arg0) (V c main_arg1) (V c main_arg2) (xblk V c t) (wqblk V c t) (bqblk V c t)
    ⟨t.val / 4, by omega⟩ (t.val % 4) (Nat.mod_lt _ (by decide)) (xblk_apply V c t ⟨t.val / 4, by omega⟩ rfl) (wqblk_apply V c t) (bqblk_apply V c t) j _ ?_ ?_ ?_
  · show win0_7.index t (0 : Fin 3) * 1 + 1 * (j 0).val = t.val / 4
    have hj : (j 0).val < 1 := (j 0).isLt
    omega
  · show win0_7.index t (1 : Fin 3) * 1024 + 1 * (j 1).val = 1024 * (t.val % 4) + (j 1).val; omega
  · show win0_7.index t (2 : Fin 3) * 128 + 1 * (j 2).val = (j 2).val; omega

/-- An index of the query array is in point `t`'s block iff each coordinate is in the block's range on its axis. -/
theorem mem_blk0_7 (t : Fin cfg0.N) (i : S4x4096x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v0_0).slice (win0_7.rect t)).set ↔ _
  rw [View.set_slice_whole, Rect.mem_set_unit]
  exact Iff.rfl

/-- Every index of the query array is in some point's block: the point of its batch and row tile. -/
theorem covered0_7 (i : S4x4096x128.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 128 := (i 2).isLt
  obtain ⟨t, ht⟩ := idx_onto0_7 ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 128 ≤ (i 2).val ∧ (i 2).val < win0_7.index t (2 : Fin 3) * 128 + 128; omega

/-- The query array after the region: the projection of `X` by `Wq`, `bq`. -/
theorem final0_7 (c : Dev nD) :
    (dat0 (F := Ideal) V c).arrAt 7 cfg0.N
      = unc3 (proj (cur3 (V c main_arg0)) (cur2 (V c main_arg1)) (cur1 (V c main_arg2))) :=
  (dat0 (F := Ideal) V c).arrAt_eq_of_cover 7 (unc3 (proj (cur3 (V c main_arg0)) (cur2 (V c main_arg1)) (cur1 (V c main_arg2))))
    (fun t _ => flushed0_7_eq V c t) covered0_7

/-! ## The second result -/

/-- What a last-row-tile point writes back to the second result is its block of the accumulated `Kᵀ V`. -/
theorem flushed0_8_eq (c : Dev nD) (t : Fin cfg0.N) (hf : (cfg0.win 8).flush t = true) :
    (dat0 (F := Ideal) V c).flushed 8 t
      = ((cfg0.win 8).blk t).view.read (Elt Ideal) (unc3 (kvAcc (Kp V c) (Vp V c))) := by
  have h1 : t.val % 4 = 3 := (flush0_8 t).mp hf
  show (cfg0.win 8).cut (grid0.coords t) ((dat0 V c).after 8 t) = _
  rw [after0_8, after8_eq V c t h1]
  obtain ⟨-, -, -, -, -, -, -, -, -, -, -, -, -, -, -, f0, f1, f2, f3⟩ := idx_facts0 t
  funext j
  show k0_pay3 (F := Ideal) (scAt0 V c t.val t.isLt) j = unc3 (kvAcc (Kp V c) (Vp V c)) (((cfg0.win 8).blk t).view.emb j)
  refine kv_point (scAt0 V c t.val t.isLt) (kvAcc (Kp V c) (Vp V c)) ⟨t.val / 4, by omega⟩ (fun k v => ?_) j _ ?_ ?_ ?_
  · rw [scAt0_eq V c t.val t.isLt ⟨t.val / 4, by omega⟩ rfl k v, h1]
    rfl
  · show win0_8.index t (0 : Fin 3) * 1 + 1 * (j 0).val = t.val / 4
    have hj : (j 0).val < 1 := (j 0).isLt
    omega
  · show win0_8.index t (1 : Fin 3) * 128 + 1 * (j 1).val = (j 1).val; omega
  · show win0_8.index t (2 : Fin 3) * 128 + 1 * (j 2).val = (j 2).val; omega

theorem mem_blk0_8 (t : Fin cfg0.N) (i : S4x128x128.Idx) :
    i ∈ ((cfg0.win 8).blk t).view.set ↔ ∀ a : Fin 3, win0_8.index t a * S1x128x128.size a ≤ (i a).val ∧ (i a).val < win0_8.index t a * S1x128x128.size a + S1x128x128.size a := by
  show i ∈ ((View.whole main_v0_1).slice (win0_8.rect t)).set ↔ _
  rw [View.set_slice_whole, Rect.mem_set_unit]
  exact Iff.rfl

/-- Every index of the second result is in some writing point's block: the last row tile of its batch. -/
theorem covered0_8 (i : S4x128x128.Idx) :
    ∃ t : Fin cfg0.N, (cfg0.win 8).flush t = true ∧ i ∈ ((cfg0.win 8).blk t).view.set := by
  have hi0 : (i 0).val < 4 := (i 0).isLt
  have hi1 : (i 1).val < 128 := (i 1).isLt
  have hi2 : (i 2).val < 128 := (i 2).isLt
  obtain ⟨t, ht, h3⟩ := idx_onto0_8 ⟨(i 0).val, hi0⟩
  have q0 : win0_8.index t (0 : Fin 3) = (i 0).val := congrFun ht 0
  have q1 : win0_8.index t (1 : Fin 3) = 0 := congrFun ht 1
  have q2 : win0_8.index t (2 : Fin 3) = 0 := congrFun ht 2
  refine ⟨t, (flush0_8 t).mpr h3, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

/-- The second result after the region: `Kᵀ V` per batch, accumulated over the four row tiles in order. -/
theorem final0_8 (c : Dev nD) :
    (dat0 (F := Ideal) V c).arrAt 8 cfg0.N
      = unc3 (kvAcc (proj (cur3 (V c main_arg0)) (cur2 (V c main_arg3)) (cur1 (V c main_arg4)))
          (proj (cur3 (V c main_arg0)) (cur2 (V c main_arg5)) (cur1 (V c main_arg6)))) :=
  (dat0 (F := Ideal) V c).arrAt_eq_of_cover 8 (unc3 (kvAcc (Kp V c) (Vp V c))) (flushed0_8_eq V c) covered0_8

end Cert.KernelIdeal.HandValue

end
-- ==== Proof.KI.ValueB.lean ====
/- Region 1 of @main at the extended reals: the result array after the region is, per batch, the product of the
   left argument array's matrix with the right argument array's matrix. First the body's payload at an index (two
   casts of a unit axis, a narrowing, a matrix product into zero, a cast back), then what each grid point writes back
   as a block of one whole-array function, then the cover of the array by the points' blocks. -/
import proofs.«128367_j40510131536516_1_alg».proof.Proof.KI.RegionB
import proofs.«128367_j40510131536516_1_alg».proof.Proof.Cur
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The block product at an index

The body's matrix product contracts axis 1 of its left operand with axis 0 of its right operand; the result's axis 0 is
the left operand's axis 0 and its axis 1 the right operand's axis 1. -/

theorem lhs_mm_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_mm_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_mm_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_mm_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into the zero accumulator, at row `i` and column `v`: the sum over the contracted coordinate. -/
theorem mm_apply (a : FVec Ideal S4096x128 .bf16) (b : FVec Ideal S128x128 .bf16) (i : Fin 4096) (v : Fin 128) :
    matmul dot_S4096x128_S128x128_S4096x128_1_0_0_1_n_n none a b (constant S4096x128 .f32 0x00000000#32) (ix2 i v)
      = ∑ k : Fin 128, a (ix2 i k) * b (ix2 k v) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 i v) ((ValueIdx.contrEquiv1 dot_S4096x128_S128x128_S4096x128_1_0_0_1_n_n 128 rfl rfl).symm k) = ix2 i k := funext fun a => Fin.ext (by
    match a with
    | ⟨0, _⟩ => exact lhs_mm_0 _ _
    | ⟨1, _⟩ => exact (lhs_mm_1 _ _).trans hk)
  have er : dot_S4096x128_S128x128_S4096x128_1_0_0_1_n_n.rhsIdx (ix2 i v) ((ValueIdx.contrEquiv1 dot_S4096x128_S128x128_S4096x128_1_0_0_1_n_n 128 rfl rfl).symm k) = ix2 k v := funext fun a => Fin.ext (by
    match a with
    | ⟨0, _⟩ => exact (rhs_mm_0 _ _).trans hk
    | ⟨1, _⟩ => exact rhs_mm_1 _ _)
  rw [el, er]

/-- The body's payload at an index: the unit axis is cast away from both loaded blocks, the right block is narrowed
    (the identity on extended reals), the blocks are multiplied, and the unit axis is put back. -/
theorem pay1_apply (x0 : Vec Ideal S1x4096x128 .bf16) (x1 : Vec Ideal S1x128x128 .f32) (u : Fin 1) (i : Fin 4096) (v : Fin 128) :
    k1_pay1 x0 x1 (ix3 u i v) = ∑ k : Fin 128, x0 (ix3 (0 : Fin 1) i k) * x1 (ix3 (0 : Fin 1) k v) := by
  unfold k1_pay1
  rw [shapeCast_ab_1ab_apply, mm_apply]
  refine Finset.sum_congr rfl fun k _ => ?_
  rw [shapeCast_1ab_ab_apply, truncf_apply, shapeCast_1ab_ab_apply]

/-! ## From blocks to the array -/

theorem off_zero3 : (![0, 0, 0] : Fin 3 → Nat) = fun _ => 0 := funext fun a => by fin_cases a <;> rfl

/-- What the result array ends holding: per batch `n`, the product of the left array's matrix `n` with the right
    array's matrix `n`. -/
abbrev prodArr (a0 : S4x4096x128.Idx → EReal) (a1 : S4x128x128.Idx → EReal) : S4x4096x128.Idx → EReal :=
  Cert.Cur.unc3 (fun n i v => ∑ k : Fin 128, Cert.Cur.cur3 a0 n i k * Cert.Cur.cur3 a1 n k v)

/-- The payload of two blocks that are batch `n` of two arrays, at a block index, is the product array at the
    array index with leading coordinate `n` and the block index's other two coordinates. -/
theorem pay1_eq_prodArr (a0 : S4x4096x128.Idx → EReal) (a1 : S4x128x128.Idx → EReal)
    (x0 : Vec Ideal S1x4096x128 .bf16) (x1 : Vec Ideal S1x128x128 .f32) (n : Fin 4)
    (h0 : ∀ (i : Fin 4096) (k : Fin 128), x0 (ix3 (0 : Fin 1) i k) = a0 (ix3 n i k))
    (h1 : ∀ (k : Fin 128) (v : Fin 128), x1 (ix3 (0 : Fin 1) k v) = a1 (ix3 n k v))
    (j : S1x4096x128.Idx) (e : S4x4096x128.Idx) (he0 : (e 0).val = n.val) (he1 : (e 1).val = (j 1).val) (he2 : (e 2).val = (j 2).val) :
    k1_pay1 x0 x1 j = prodArr a0 a1 e := by
  obtain ⟨u, i, v, rfl⟩ : ∃ (u : Fin 1) (i : Fin 4096) (v : Fin 128), j = ix3 u i v := ⟨j 0, j 1, j 2, eq_ix3 j⟩
  have e0 : e 0 = n := Fin.ext he0
  have e1 : e 1 = i := Fin.ext he1
  have e2 : e 2 = v := Fin.ext he2
  rw [pay1_apply]
  show _ = ∑ k : Fin 128, a0 (ix3 (e 0) (e 1) k) * a1 (ix3 (e 0) k (e 2))
  rw [e0, e1, e2]
  exact Finset.sum_congr rfl fun k _ => by rw [h0, h1]

/-- The printed index maps, decided over the grid: every window's block index on the leading axis is the point's
    coordinate, below 4, and zero on the other two axes. -/
theorem idx_facts : ∀ t : Fin cfg1.N, win1_0.index t (0 : Fin 3) = win1_2.index t (0 : Fin 3)
    ∧ win1_0.index t (1 : Fin 3) = 0 ∧ win1_0.index t (2 : Fin 3) = 0
    ∧ win1_1.index t (0 : Fin 3) = win1_2.index t (0 : Fin 3)
    ∧ win1_1.index t (1 : Fin 3) = 0 ∧ win1_1.index t (2 : Fin 3) = 0
    ∧ win1_2.index t (0 : Fin 3) < 4
    ∧ win1_2.index t (1 : Fin 3) = 0 ∧ win1_2.index t (2 : Fin 3) = 0 :=
  (by decide +kernel : ∀ t : Fin grid1.N, _)

/-- Every batch is some point's. -/
theorem idx_onto : ∀ q : Fin 4, ∃ t : Fin cfg1.N, win1_2.index t = ![q.val, 0, 0] :=
  (by decide +kernel : ∀ q : Fin 4, ∃ t : Fin grid1.N, win1_2.index t = ![q.val, 0, 0])

section Region
variable (V : (c : Dev nD) → (b : Ref sig .tc) → Buf (Elt Ideal) ((c : Thread nD τ).loc b))

/-- What point `t` writes back is block `t` of the product array of the two argument arrays as the region finds them. -/
theorem flushed1_2_eq (c : Dev nD) (t : Fin cfg1.N) :
    (dat1 (F := Ideal) V c).flushed 2 t
      = ((cfg1.win 2).blk t).view.read (Elt Ideal) (prodArr (V c main_v0_0) (V c main_v0_1)) := by
  show (cfg1.win 2).cut (grid1.coords t) ((dat1 V c).after 2 t) = _
  rw [after1_2]
  unfold out1_2
  rw [View.canon_unit_zero off_zero3]
  simp only [View.ld_unit_zero (S := S1x4096x128) off_zero3, View.ld_unit_zero (S := S1x128x128) off_zero3]
  obtain ⟨f0, f1, f2, f3, f4, f5, f6, f7, f8⟩ := idx_facts t
  funext j
  show k1_pay1 (iblk1 V c 0 t) (iblk1 V c 1 t) j = prodArr (V c main_v0_0) (V c main_v0_1) (((cfg1.win 2).blk t).view.emb j)
  refine pay1_eq_prodArr (V c main_v0_0) (V c main_v0_1) (iblk1 V c 0 t) (iblk1 V c 1 t) ⟨win1_2.index t (0 : Fin 3), f6⟩ ?_ ?_ j _ ?_ ?_ ?_
  · intro i k
    show V c main_v0_0 (((cfg1.win 0).blk t).view.emb (ix3 (0 : Fin 1) i k)) = _
    refine congrArg (V c main_v0_0) (funext fun a => Fin.ext ?_)
    match a with
    | ⟨0, _⟩ => show win1_0.index t (0 : Fin 3) * 1 + 1 * 0 = win1_2.index t (0 : Fin 3); omega
    | ⟨1, _⟩ => show win1_0.index t (1 : Fin 3) * 4096 + 1 * i.val = i.val; omega
    | ⟨2, _⟩ => show win1_0.index t (2 : Fin 3) * 128 + 1 * k.val = k.val; omega
  · intro k v
    show V c main_v0_1 (((cfg1.win 1).blk t).view.emb (ix3 (0 : Fin 1) k v)) = _
    refine congrArg (V c main_v0_1) (funext fun a => Fin.ext ?_)
    match a with
    | ⟨0, _⟩ => show win1_1.index t (0 : Fin 3) * 1 + 1 * 0 = win1_2.index t (0 : Fin 3); omega
    | ⟨1, _⟩ => show win1_1.index t (1 : Fin 3) * 128 + 1 * k.val = k.val; omega
    | ⟨2, _⟩ => show win1_1.index t (2 : Fin 3) * 128 + 1 * v.val = v.val; omega
  · show win1_2.index t (0 : Fin 3) * 1 + 1 * (j 0).val = win1_2.index t (0 : Fin 3)
    have hj : (j 0).val < 1 := (j 0).isLt
    omega
  · show win1_2.index t (1 : Fin 3) * 4096 + 1 * (j 1).val = (j 1).val; omega
  · show win1_2.index t (2 : Fin 3) * 128 + 1 * (j 2).val = (j 2).val; omega

/-- An index of the result array is in point `t`'s block iff each coordinate is in the block's range on its axis. -/
theorem mem_blk (t : Fin cfg1.N) (i : S4x4096x128.Idx) :
    i ∈ ((cfg1.win 2).blk t).view.set ↔ ∀ a : Fin 3, win1_2.index t a * S1x4096x128.size a ≤ (i a).val ∧ (i a).val < win1_2.index t a * S1x4096x128.size a + S1x4096x128.size a := by
  show i ∈ ((View.whole main_v1).slice (win1_2.rect t)).set ↔ _
  rw [View.set_slice_whole, Rect.mem_set_unit]
  exact Iff.rfl

/-- Every index of the result array is in some writing point's block: the point of its batch. -/
theorem cover (i : S4x4096x128.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 128 := (i 2).isLt
  obtain ⟨t, ht⟩ := idx_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 128 ≤ (i 2).val ∧ (i 2).val < win1_2.index t (2 : Fin 3) * 128 + 128; omega

/-- The result array after the region: per batch, the product of the two argument arrays' matrices. -/
theorem final1_2 (c : Dev nD) :
    (Cert.KernelIdeal.Hand.dat1 (F := Ideal) V c).arrAt 2 cfg1.N
      = Cert.Cur.unc3 (fun n i v => ∑ k : Fin 128, Cert.Cur.cur3 (V c main_v0_0) n i k * Cert.Cur.cur3 (V c main_v0_1) n k v) :=
  (dat1 (F := Ideal) V c).arrAt_eq_of_cover 2 (prodArr (V c main_v0_0) (V c main_v0_1)) (fun t _ => flushed1_2_eq V c t) cover

end Region

end Cert.KernelIdeal.HandValue

end
-- ==== Proof.Ref.RefValue.lean ====
import proofs.«128367_j40510131536516_1_alg».proof.Proof.Gen.ReferenceIdeal.Run
import proofs.«128367_j40510131536516_1_alg».proof.Proof.Gen.ReferenceIdeal.Read
import proofs.«128367_j40510131536516_1_alg».proof.Proof.Spec
import proofs.«128367_j40510131536516_1_alg».proof.Proof.Cur
import Idealize.ShloMosaic.Lib.ValueIdx
import Idealize.ShloMosaic.PureOps.Ideal.Laws

/-!
# The reference's result, index by index

The reference projects `X` three times (`X · Wᵀ + b` for queries, keys and values), forms the scores
`Q · Kᵀ` per batch and multiplies them by `V`. Read at an index `(n, i, v)` over the extended reals its result is
`∑ j, (∑ k, Q n i k * K n j k) * V n j v` with `Q = proj X Wq bq`, `K = proj X Wk bk`, `V = proj X Wv bv`.
-/

noncomputable section

namespace Cert.ReferenceIdeal.RefValue

open Cert.ReferenceIdeal Cert.ReferenceIdeal.Gen Idealize.ShloMosaic Idealize.ShloMosaic.TcCoe Idealize.ShloMosaic.ValueIdx
open Cert.Cur Cert.Spec

open Cert.ReferenceIdeal.Read

/-! ### Index equations: the operand indices of each operation, at an index given by its coordinates -/

private theorem lidx0 (n : Fin 4) (r : Fin 4096) (k : Fin 128) (e : Fin 1024) :
    lidx_main_v0 (ix3 n r k) e = ix3 n r e :=
  funext fun a => Fin.ext (by match a with | ⟨0, _⟩ => rfl | ⟨1, _⟩ => rfl | ⟨2, _⟩ => rfl)
private theorem ridx0 (n : Fin 4) (r : Fin 4096) (k : Fin 128) (e : Fin 1024) :
    ridx_main_v0 (ix3 n r k) e = ix2 k e :=
  funext fun a => Fin.ext (by match a with | ⟨0, _⟩ => rfl | ⟨1, _⟩ => rfl)
private theorem lidx4 (n : Fin 4) (r : Fin 4096) (k : Fin 128) (e : Fin 1024) :
    lidx_main_v4 (ix3 n r k) e = ix3 n r e :=
  funext fun a => Fin.ext (by match a with | ⟨0, _⟩ => rfl | ⟨1, _⟩ => rfl | ⟨2, _⟩ => rfl)
private theorem ridx4 (n : Fin 4) (r : Fin 4096) (k : Fin 128) (e : Fin 1024) :
    ridx_main_v4 (ix3 n r k) e = ix2 k e :=
  funext fun a => Fin.ext (by match a with | ⟨0, _⟩ => rfl | ⟨1, _⟩ => rfl)
private theorem lidx8 (n : Fin 4) (r : Fin 4096) (k : Fin 128) (e : Fin 1024) :
    lidx_main_v8 (ix3 n r k) e = ix3 n r e :=
  funext fun a => Fin.ext (by match a with | ⟨0, _⟩ => rfl | ⟨1, _⟩ => rfl | ⟨2, _⟩ => rfl)
private theorem ridx8 (n : Fin 4) (r : Fin 4096) (k : Fin 128) (e : Fin 1024) :
    ridx_main_v8 (ix3 n r k) e = ix2 k e :=
  funext fun a => Fin.ext (by match a with | ⟨0, _⟩ => rfl | ⟨1, _⟩ => rfl)
/-- The bias is read at the last coordinate, through both broadcasts. -/
private theorem bidx2 (n : Fin 4) (r : Fin 4096) (k : Fin 128) :
    idx_main_v1 (idx_main_v2 (ix3 n r k)) = ix1 k :=
  funext fun a => Fin.ext (by match a with | ⟨0, _⟩ => rfl)
private theorem bidx6 (n : Fin 4) (r : Fin 4096) (k : Fin 128) :
    idx_main_v5 (idx_main_v6 (ix3 n r k)) = ix1 k :=
  funext fun a => Fin.ext (by match a with | ⟨0, _⟩ => rfl)
private theorem bidx10 (n : Fin 4) (r : Fin 4096) (k : Fin 128) :
    idx_main_v9 (idx_main_v10 (ix3 n r k)) = ix1 k :=
  funext fun a => Fin.ext (by match a with | ⟨0, _⟩ => rfl)
private theorem lidx12 (n : Fin 4) (r j : Fin 4096) (k : Fin 128) :
    lidx_main_v12 (ix3 n r j) k = ix3 n r k :=
  funext fun a => Fin.ext (by match a with | ⟨0, _⟩ => rfl | ⟨1, _⟩ => rfl | ⟨2, _⟩ => rfl)
private theorem ridx12 (n : Fin 4) (r j : Fin 4096) (k : Fin 128) :
    ridx_main_v12 (ix3 n r j) k = ix3 n j k :=
  funext fun a => Fin.ext (by match a with | ⟨0, _⟩ => rfl | ⟨1, _⟩ => rfl | ⟨2, _⟩ => rfl)
private theorem lidx13 (n : Fin 4) (r : Fin 4096) (v : Fin 128) (j : Fin 4096) :
    lidx_main_v13 (ix3 n r v) j = ix3 n r j :=
  funext fun a => Fin.ext (by match a with | ⟨0, _⟩ => rfl | ⟨1, _⟩ => rfl | ⟨2, _⟩ => rfl)
private theorem ridx13 (n : Fin 4) (r : Fin 4096) (v : Fin 128) (j : Fin 4096) :
    ridx_main_v13 (ix3 n r v) j = ix3 n j v :=
  funext fun a => Fin.ext (by match a with | ⟨0, _⟩ => rfl | ⟨1, _⟩ => rfl | ⟨2, _⟩ => rfl)

/-! ### The three projections, at coordinates -/

/-- The query projection at `(n, r, k)` is `(∑ e, X n r e * Wq k e) + bq k`. -/
theorem projQ (x0 : (⟨S4x4096x1024, .f32⟩ : BufTy).Contents (Elt Ideal)) (x1 : (⟨S128x1024, .f32⟩ : BufTy).Contents (Elt Ideal))
    (x2 : (⟨S128, .f32⟩ : BufTy).Contents (Elt Ideal)) (n : Fin 4) (r : Fin 4096) (k : Fin 128) :
    val_main_v3 (F := Ideal) x0 x1 x2 (ix3 n r k) = proj (cur3 x0) (cur2 x1) (cur1 x2) n r k := by
  rw [val_main_v3_apply, val_main_v0_apply, val_main_v2_apply, val_main_v1_apply, bidx2]
  simp only [lidx0, ridx0]
  rfl

/-- The key projection at `(n, r, k)`. -/
theorem projK (x0 : (⟨S4x4096x1024, .f32⟩ : BufTy).Contents (Elt Ideal)) (x3 : (⟨S128x1024, .f32⟩ : BufTy).Contents (Elt Ideal))
    (x4 : (⟨S128, .f32⟩ : BufTy).Contents (Elt Ideal)) (n : Fin 4) (r : Fin 4096) (k : Fin 128) :
    val_main_v7 (F := Ideal) x0 x3 x4 (ix3 n r k) = proj (cur3 x0) (cur2 x3) (cur1 x4) n r k := by
  rw [val_main_v7_apply, val_main_v4_apply, val_main_v6_apply, val_main_v5_apply, bidx6]
  simp only [lidx4, ridx4]
  rfl

/-- The value projection at `(n, r, k)`. -/
theorem projV (x0 : (⟨S4x4096x1024, .f32⟩ : BufTy).Contents (Elt Ideal)) (x5 : (⟨S128x1024, .f32⟩ : BufTy).Contents (Elt Ideal))
    (x6 : (⟨S128, .f32⟩ : BufTy).Contents (Elt Ideal)) (n : Fin 4) (r : Fin 4096) (k : Fin 128) :
    val_main_v11 (F := Ideal) x0 x5 x6 (ix3 n r k) = proj (cur3 x0) (cur2 x5) (cur1 x6) n r k := by
  rw [val_main_v11_apply, val_main_v8_apply, val_main_v10_apply, val_main_v9_apply, bidx10]
  simp only [lidx8, ridx8]
  rfl

/-- The reference's composed term, at the extended reals, is the scores-first double sum of the three projections. -/
theorem ref_eq (x0 : (⟨S4x4096x1024, .f32⟩ : BufTy).Contents (Elt Ideal)) (x1 : (⟨S128x1024, .f32⟩ : BufTy).Contents (Elt Ideal))
    (x2 : (⟨S128, .f32⟩ : BufTy).Contents (Elt Ideal)) (x3 : (⟨S128x1024, .f32⟩ : BufTy).Contents (Elt Ideal))
    (x4 : (⟨S128, .f32⟩ : BufTy).Contents (Elt Ideal)) (x5 : (⟨S128x1024, .f32⟩ : BufTy).Contents (Elt Ideal))
    (x6 : (⟨S128, .f32⟩ : BufTy).Contents (Elt Ideal)) :
    Cert.ReferenceIdeal.Read.val_main_v13 (F := Ideal) x0 x1 x2 x3 x4 x5 x6
      = unc3 (refOut (proj (cur3 x0) (cur2 x1) (cur1 x2)) (proj (cur3 x0) (cur2 x3) (cur1 x4)) (proj (cur3 x0) (cur2 x5) (cur1 x6))) := by
  funext i
  obtain ⟨n, r, v, rfl⟩ : ∃ (n : Fin 4) (r : Fin 4096) (v : Fin 128), i = ix3 n r v := ⟨i 0, i 1, i 2, eq_ix3 i⟩
  rw [val_main_v13_apply, unc3_ix3]
  unfold refOut
  refine Finset.sum_congr rfl fun j _ => ?_
  rw [lidx13, ridx13, val_main_v12_apply, projV]
  congr 1
  refine Finset.sum_congr rfl fun k _ => ?_
  rw [lidx12, ridx12, projQ, projK]

end Cert.ReferenceIdeal.RefValue

end
-- ==== Proof.Finite.lean ====
import proofs.«128367_j40510131536516_1_alg».proof.Pre_finite_inputs
import proofs.«128367_j40510131536516_1_alg».proof.Proof.Spec
import proofs.«128367_j40510131536516_1_alg».proof.Proof.Cur
import Idealize.ShloMosaic.Lib.ValueIdx
import Idealize.ShloMosaic.Lib.ReduceAll
import Idealize.ShloMosaic.PureOps.Ideal.Laws

/-!
# What the precondition says: every input entry is a real number

The precondition is the conjunction, over the seven inputs, of "every entry has absolute value below +∞".
Over the extended reals an entry `x` with `|x| < +∞` is neither `+∞` nor `-∞`: it is a real number.
-/

noncomputable section

namespace Cert.Finite

open Idealize.ShloMosaic Idealize.ShloMosaic.ValueIdx Cert.Cur Cert.Spec Cert.Pre_finite_inputs

/-- The pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max a (-a)` is strictly below `+∞` is a real number:
    at `+∞` the maximum is `+∞`, at `-∞` it is `-(-∞) = +∞`, and `+∞ < +∞` is false. -/
theorem real_of_abs_lt_top (a : EReal) (h : Ideal.cmp .olt (max a (-a)) (⊤ : EReal) = 1#1) :
    ∃ r : ℝ, a = (r : EReal) := by
  induction a using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- One conjunct of the precondition, for an input of any shape: if the conjunction over all entries of
    "`|x i| < +∞`" is one, every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (h : Host.reduce IntOp.andi
          (cmpf .olt (Host.absf x) (broadcastInDim s ![] hb (constant S_ .f32 0x7F800000#32)))
          (constantI S_ 1 1#1) hr hu j = 1#1) :
    ∀ i : s.Idx, ∃ r : ℝ, x i = (r : EReal) := by
  intro i
  have e := Host.reduce_andi_all _ _ hr hu j h i
  apply real_of_abs_lt_top
  rw [← ofBits_inf]
  exact e

/-- The precondition, all ones, makes every entry of every input a real number. -/
theorem real_of_pre [hF : Cert.Pre_finite_inputs.Facts]
    (x0 : FVec Ideal S4x4096x1024 .f32) (x1 : FVec Ideal S128x1024 .f32) (x2 : FVec Ideal S128 .f32)
    (x3 : FVec Ideal S128x1024 .f32) (x4 : FVec Ideal S128 .f32) (x5 : FVec Ideal S128x1024 .f32) (x6 : FVec Ideal S128 .f32)
    (h : Cert.Pre_finite_inputs.fn (F := Ideal) x0 x1 x2 x3 x4 x5 x6 = (fun _ => 1#1)) :
    Real3 (cur3 x0) ∧ Real2 (cur2 x1) ∧ Real1 (cur1 x2) ∧ Real2 (cur2 x3) ∧ Real1 (cur1 x4) ∧ Real2 (cur2 x5) ∧ Real1 (cur1 x6) := by
  have h0 := congrFun h ValueIdx.ix0
  dsimp only [fn, fn_part1] at h0
  change IntOp.andi _ _ = 1#1 at h0
  obtain ⟨h0, a6⟩ := IntOp.andi_eq_one.1 h0
  change IntOp.andi _ _ = 1#1 at h0
  obtain ⟨h0, a5⟩ := IntOp.andi_eq_one.1 h0
  change IntOp.andi _ _ = 1#1 at h0
  obtain ⟨h0, a4⟩ := IntOp.andi_eq_one.1 h0
  change IntOp.andi _ _ = 1#1 at h0
  obtain ⟨h0, a3⟩ := IntOp.andi_eq_one.1 h0
  change IntOp.andi _ _ = 1#1 at h0
  obtain ⟨h0, a2⟩ := IntOp.andi_eq_one.1 h0
  change IntOp.andi _ _ = 1#1 at h0
  obtain ⟨a0, a1⟩ := IntOp.andi_eq_one.1 h0
  have r0 := real_of_all x0 _ _ _ _ a0
  have r1 := real_of_all x1 _ _ _ _ a1
  have r2 := real_of_all x2 _ _ _ _ a2
  have r3 := real_of_all x3 _ _ _ _ a3
  have r4 := real_of_all x4 _ _ _ _ a4
  have r5 := real_of_all x5 _ _ _ _ a5
  have r6 := real_of_all x6 _ _ _ _ a6
  exact ⟨fun a b c => r0 _, fun a b => r1 _, fun a => r2 _, fun a b => r3 _, fun a => r4 _,
    fun a b => r5 _, fun a => r6 _⟩

end Cert.Finite

end
-- ==== Proof.lean ====
/-
  Unnormalised attention without the score matrix.

  The reference projects `X` to queries, keys and values (`X · Wᵀ + b`), forms the scores `Q · Kᵀ` per batch and
  multiplies by `V`: `out n i v = ∑ j, (∑ k, Q n i k * K n j k) * V n j v`. The kernel never forms the scores: its first
  pallas_call writes the queries and accumulates `Kᵀ V` per batch over four row tiles; its second multiplies the
  queries by that [128, 128] matrix: `out n i v = ∑ k, Q n i k * (∑ j, K n j k * V n j v)`. Over the extended reals,
  where every change of float format is the identity, the two are equal once every input entry is a real number (the
  precondition): distributivity and the exchange of two finite sums.

  The three frames: the kernel's two programs run as two regions of one launch, the first region's invariant carrying
  the accumulator from point to point; the reference is a straight line of host operations. The ideal pass rewrote
  nothing, so `preserves` is trivial.
-/
import proofs.«128367_j40510131536516_1_alg».proof.Defs
import proofs.«128367_j40510131536516_1_alg».proof.Proof.Gen.Kernel
import proofs.«128367_j40510131536516_1_alg».proof.Proof.Gen.KernelIdeal
import proofs.«128367_j40510131536516_1_alg».proof.Proof.Gen.ReferenceIdeal
import proofs.«128367_j40510131536516_1_alg».proof.Proof.Gen.Pre_finite_inputs
import proofs.«128367_j40510131536516_1_alg».proof.Proof.Gen.ReferenceIdeal.Run
import proofs.«128367_j40510131536516_1_alg».proof.Proof.Gen.ReferenceIdeal.Read
import proofs.«128367_j40510131536516_1_alg».proof.Proof.K.Run
import proofs.«128367_j40510131536516_1_alg».proof.Proof.KI.Run
import proofs.«128367_j40510131536516_1_alg».proof.Proof.KI.ValueA
import proofs.«128367_j40510131536516_1_alg».proof.Proof.KI.ValueB
import proofs.«128367_j40510131536516_1_alg».proof.Proof.Ref.RefValue
import proofs.«128367_j40510131536516_1_alg».proof.Proof.Finite
import proofs.«128367_j40510131536516_1_alg».proof.Proof.Spec
import proofs.«128367_j40510131536516_1_alg».proof.Proof.Cur
import Idealize.ShloMosaic.Adequacy
import Idealize.ShloMosaic.Init

noncomputable section

namespace Cert.Proof

open Idealize.ShloMosaic Idealize.ShloMosaic.TcCoe Idealize.SL.Sem Cert.Cur Cert.Spec

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The value -/

section Value

variable (m : (ℓ : Loc Cert.KernelIdeal.nD Cert.KernelIdeal.τ Cert.KernelIdeal.sig) → Buf (Elt Ideal) ℓ)

/-- Queries, keys and values of the launch contents on core `c`. -/
def Qm (c : Dev Cert.KernelIdeal.nD) : Fin 4 → Fin 4096 → Fin 128 → EReal :=
  proj (cur3 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1))) (cur1 (m ((c.tc : Thread Cert.KernelIdeal.nD Cert.KernelIdeal.τ).loc Cert.KernelIdeal.main_arg2)))
def Km (c : Dev Cert.KernelIdeal.nD) : Fin 4 → Fin 4096 → Fin 128 → EReal :=
  proj (cur3 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4)))
def Vm (c : Dev Cert.KernelIdeal.nD) : Fin 4 → Fin 4096 → Fin 128 → EReal :=
  proj (cur3 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6)))

/-- What the kernel's result array ends holding is the reference's double sum: the second region contracts the queries
    with the first region's `Kᵀ V`, which on real entries is the scores-first sum. -/
theorem kernel_value (hpre : Cert.Pre_KernelIdeal m) (c : Dev Cert.KernelIdeal.nD) :
    (Cert.KernelIdeal.Hand.dat1 (F := Ideal) (Cert.KernelIdeal.Hand.V2 m) c).arrAt 2 Cert.KernelIdeal.cfg1.N
      = unc3 (refOut (Qm m c) (Km m c) (Vm m c)) := by
  rw [Cert.KernelIdeal.HandValue.final1_2 (Cert.KernelIdeal.Hand.V2 m) c, Cert.KernelIdeal.Hand.V2_main_v0_0,
    Cert.KernelIdeal.Hand.V2_main_v0_1, Cert.KernelIdeal.HandValue.final0_7 (Cert.KernelIdeal.Hand.V0 m) c,
    Cert.KernelIdeal.HandValue.final0_8 (Cert.KernelIdeal.Hand.V0 m) c]
  obtain ⟨h0, h1, h2, h3, h4, h5, h6⟩ := Cert.Finite.real_of_pre _ _ _ _ _ _ _ (hpre c)
  exact congrArg unc3 (kerOut_eq_refOut (Qm m c) (Km m c) (Vm m c) (proj_real _ _ _ h0 h1 h2) (proj_real _ _ _ h0 h3 h4)
    (proj_real _ _ _ h0 h5 h6))

end Value

/-- At the extended reals the kernel's result array ends at the reference's double sum of arguments that agree. -/
theorem algebraic : Cert.algebraic_KernelIdeal_ReferenceIdeal := by
  intro m ρ m' ρ' hpre hagree
  refine ⟨fun c => unc3 (refOut (Qm m c) (Km m c) (Vm m c)), ?_, ?_⟩
  · exact (θ_run Cert.KernelIdeal.defs _ _).mono (fun _ h c => ⟨(h c).1.trans (kernel_value m hpre c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.ref_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
    rw [(hagree c).1, (hagree c).2.1, (hagree c).2.2.1, (hagree c).2.2.2.1, (hagree c).2.2.2.2.1, (hagree c).2.2.2.2.2.1, (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
